-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768 : Shape := ⟨1, ![32768]⟩
abbrev S32768x1 : Shape := ⟨2, ![32768, 1]⟩
abbrev S1x32768 : Shape := ⟨2, ![1, 32768]⟩
abbrev S32768x32768 : Shape := ⟨2, ![32768, 32768]⟩
abbrev S_ : Shape := ⟨0, ![]⟩

class Facts : Prop where
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)
  bcast_S_S32768x512 : S_.BroadcastsInDim S32768x512 (![] : Fin 0 → Fin S32768x512.rank)
  reducesTo_S32768x512_S_d0_1 : S32768x512.ReducesTo [0, 1] S_
  h_S_ : 0 < S_.numel
  natLt_1_32 : 1 < 32
  reducesTo_S32768x32768_S32768_d0 : S32768x32768.ReducesTo [0] S32768
  bcast_S_S32768 : S_.BroadcastsInDim S32768 (![] : Fin 0 → Fin S32768.rank)
  reducesTo_S32768_S_d0 : S32768.ReducesTo [0] S_

variable [Facts]

def fn_part1 {F : FTy → Type} [FloatOps F] (main_v14 : IVec S_ 1) (main_v16 : IVec S32768 32) (main_v17 : IVec S32768 32) : IVec S_ 1 :=
  let main_v18 : IVec S32768 1 := cmpi .eq main_v16 main_v17
  let main_c_4 : IVec S_ 1 := constantI S_ 1 1#1
  let main_v19 : IVec S_ 1 := (fun x v => Host.reduce IntOp.andi x v reducesTo_S32768_S_d0 h_S_) main_v18 main_c_4
  let main_v20 : IVec S_ 1 := andi main_v14 main_v19
  main_v20

def fn {F : FTy → Type} [FloatOps F] (main_arg0 : FVec F S32768x512 .f32) (main_arg1 : FVec F S32768x512 .f32) (main_arg2 : IVec S32768 32) : IVec S_ 1 :=
  let main_v0 : IVec S32768x1 32 := broadcastInDim S32768x1 ![0] bcast_S32768_S32768x1_0 main_arg2
  let main_v1 : IVec S32768 32 := iotaInDim S32768 32 0
  let main_v2 : IVec S1x32768 32 := broadcastInDim S1x32768 ![1] bcast_S32768_S1x32768_1 main_v1
  let main_v3 : IVec S32768x32768 32 := broadcastInDim S32768x32768 ![0, 1] bcast_S32768x1_S32768x32768_0_1 main_v0
  let main_v4 : IVec S32768x32768 32 := broadcastInDim S32768x32768 ![0, 1] bcast_S1x32768_S32768x32768_0_1 main_v2
  let main_v5 : IVec S32768x32768 1 := cmpi .eq main_v3 main_v4
  let main_v6 : FVec F S32768x512 .f32 := Host.absf main_arg0
  let main_cst : FVec F S_ .f32 := constant S_ .f32 0x7F800000#32
  let main_v7 : FVec F S32768x512 .f32 := broadcastInDim S32768x512 ![] bcast_S_S32768x512 main_cst
  let main_v8 : IVec S32768x512 1 := cmpf .olt main_v6 main_v7
  let main_c : IVec S_ 1 := constantI S_ 1 1#1
  let main_v9 : IVec S_ 1 := (fun x v => Host.reduce IntOp.andi x v reducesTo_S32768x512_S_d0_1 h_S_) main_v8 main_c
  let main_v10 : FVec F S32768x512 .f32 := Host.absf main_arg1
  let main_cst_0 : FVec F S_ .f32 := constant S_ .f32 0x7F800000#32
  let main_v11 : FVec F S32768x512 .f32 := broadcastInDim S32768x512 ![] bcast_S_S32768x512 main_cst_0
  let main_v12 : IVec S32768x512 1 := cmpf .olt main_v10 main_v11
  let main_c_1 : IVec S_ 1 := constantI S_ 1 1#1
  let main_v13 : IVec S_ 1 := (fun x v => Host.reduce IntOp.andi x v reducesTo_S32768x512_S_d0_1 h_S_) main_v12 main_c_1
  let main_v14 : IVec S_ 1 := andi main_v9 main_v13
  let main_v15 : IVec S32768x32768 32 := (extui 32 · natLt_1_32) main_v5
  let main_c_2 : IVec S_ 32 := constantI S_ 32 0#32
  let main_v16 : IVec S32768 32 := (fun x v => Host.reduce IntOp.addi x v reducesTo_S32768x32768_S32768_d0 h_S_) main_v15 main_c_2
  let main_c_3 : IVec S_ 32 := constantI S_ 32 1#32
  let main_v17 : IVec S32768 32 := broadcastInDim S32768 ![] bcast_S_S32768 main_c_3
  fn_part1 (F := F) main_v14 main_v16 main_v17
-- ==== Kernel.lean ====
abbrev S32768x512 : Shape := ⟨2, ![32768, 512]⟩
abbrev S32768 : Shape := ⟨1, ![32768]⟩
abbrev S_ : Shape := ⟨0, ![]⟩
abbrev S16384 : Shape := ⟨1, ![16384]⟩
abbrev S16384x1 : Shape := ⟨2, ![16384, 1]⟩
abbrev S32768x1 : Shape := ⟨2, ![32768, 1]⟩
abbrev S2x512x512 : Shape := ⟨3, ![2, 512, 512]⟩
abbrev S2x1x1 : Shape := ⟨3, ![2, 1, 1]⟩
abbrev S2048x512 : Shape := ⟨2, ![2048, 512]⟩
abbrev S2048x1 : Shape := ⟨2, ![2048, 1]⟩
abbrev S1x512x512 : Shape := ⟨3, ![1, 512, 512]⟩
abbrev S1x1x1 : Shape := ⟨3, ![1, 1, 1]⟩
abbrev S512x512 : Shape := ⟨2, ![512, 512]⟩
abbrev S1x1 : Shape := ⟨2, ![1, 1]⟩
abbrev S2048 : Shape := ⟨1, ![2048]⟩
abbrev S1 : Shape := ⟨1, ![1]⟩

abbrev nBuf : Space → Nat
  | .hbm => 55
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768, .i32⟩
  | .hbm, ⟨3, _⟩ => ⟨S_, .f32⟩
  | .hbm, ⟨4, _⟩ => ⟨S32768, .f32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S_, .f32⟩
  | .hbm, ⟨15, _⟩ => ⟨S16384, .f32⟩
  | .hbm, ⟨16, _⟩ => ⟨S32768, .f32⟩
  | .hbm, ⟨17, _⟩ => ⟨S32768x1, .f32⟩
  | .hbm, ⟨18, _⟩ => ⟨S2x512x512, .f32⟩
  | .hbm, ⟨19, _⟩ => ⟨S2x512x512, .f32⟩
  | .hbm, ⟨20, _⟩ => ⟨S2x1x1, .f32⟩
  | .hbm, ⟨21, _⟩ => ⟨S_, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S1x512x512, .f32⟩
  | .local _ .vmem, ⟨7, _⟩ => ⟨S1x512x512, .f32⟩
  | .local _ .vmem, ⟨8, _⟩ => ⟨S1x1x1, .f32⟩
  | .local _ .vmem, ⟨9, _⟩ => ⟨S512x512, .f32⟩
  | .local _ .vmem, ⟨10, _⟩ => ⟨S512x512, .f32⟩
  | .local _ .vmem, ⟨11, _⟩ => ⟨S1x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_21 : BitVec 32 := 0#32
  let v36 : BitVec 1 := Scalar.cmpi .ne v35 c0_i32_21
  v36

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  bcast_S_S32768 : S_.BroadcastsInDim S32768 (![] : Fin 0 → Fin S32768.rank)
  slices_S32768_S16384_0 : S32768.Slices ![0] S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S32768_S32768x1 : S32768.ShapeCasts S32768x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  broadcasts_S2048x1_S2048x512 : S2048x1.Broadcasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x512x512_S512x512_d0 : S2x512x512.ReducesTo [0] S512x512
  h_S_ : 0 < S_.numel
  reducesTo_S2x1x1_S_d0_1_2 : S2x1x1.ReducesTo [0, 1, 2] S_
  bcast_S_S512x512 : S_.BroadcastsInDim S512x512 (![] : Fin 0 → Fin S512x512.rank)
  reducesTo_S512x512_S_d0_1 : S512x512.ReducesTo [0, 1] S_
  scatter_S32768_S16384x1_S16384_n_0_0_1_wf : ScatterDims.WF S32768 S16384x1 S16384 [] [0] [0] 1
  dot_S2048x512_S2048x512_S512x512_0_0_1_1_n_n_wf : DotDims.WF S2048x512 S2048x512 S512x512 [0] [0] [1] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .f32 = 32 ∨ (Rect.block (s := S32768x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .f32 = 32 ∨ (Rect.block (s := S2x512x512) S1x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .f32 = 32 ∨ (Rect.block (s := S2x512x512) S1x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def scatter_S32768_S16384x1_S16384_n_0_0_1 : ScatterDims S32768 S16384x1 S16384 where
  updateWindowDims := []
  insertedWindowDims := [0]
  scatterDimsToOperandDims := [0]
  indexVectorDim := 1
  wf := scatter_S32768_S16384x1_S16384_n_0_0_1_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x512x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x512x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32768x512 : Shape := ⟨2, ![32768, 512]⟩
abbrev S32768 : Shape := ⟨1, ![32768]⟩
abbrev S_ : Shape := ⟨0, ![]⟩
abbrev S65536x512 : Shape := ⟨2, ![65536, 512]⟩
abbrev S16384 : Shape := ⟨1, ![16384]⟩
abbrev S16384x1 : Shape := ⟨2, ![16384, 1]⟩
abbrev S16384x512 : Shape := ⟨2, ![16384, 512]⟩
abbrev S512x16384 : Shape := ⟨2, ![512, 16384]⟩
abbrev S512x512 : Shape := ⟨2, ![512, 512]⟩

abbrev nBuf : Space → Nat
  | .hbm => 59
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768, .i32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x512, .f32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x512, .f32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x512, .f32⟩
  | .hbm, ⟨30, _⟩ => ⟨S512x16384, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x16384, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  reducesTo_S32768x512_S_d0_1 : S32768x512.ReducesTo [0, 1] S_
  h_S_ : 0 < S_.numel
  concatenates_S32768x512_S32768x512_S65536x512_d0 : Shape.Concatenates [S32768x512, S32768x512] S65536x512 0
  slices_S32768_S16384_0 : S32768.Slices ![0] S16384
  bcast_S_S16384 : S_.BroadcastsInDim S16384 (![] : Fin 0 → Fin S16384.rank)
  bcast_S16384_S16384x1_0 : S16384.BroadcastsInDim S16384x1 (![0] : Fin 1 → Fin S16384x1.rank)
  slices_S32768_S16384_16384 : S32768.Slices ![16384] S16384
  transposes_S16384x512_S512x16384_1_0 : S16384x512.Transposes [1, 0] S512x16384
  bcast_S_S512x512 : S_.BroadcastsInDim S512x512 (![] : Fin 0 → Fin S512x512.rank)
  reducesTo_S512x512_S_d0_1 : S512x512.ReducesTo [0, 1] S_
  gather_S65536x512_S16384x1_S16384x512_1_0_n_n_0_1_1512_wf : GatherDims.WF S65536x512 S16384x1 S16384x512 [1] [0] [] [0] [] 1 ![1, 512]
  dot_S512x16384_S16384x512_S512x512_1_0_0_1_n_n_wf : DotDims.WF S512x16384 S16384x512 S512x512 [1] [0] [0] [1] [] []
  dot_S512x512_S512x512_S512x512_1_0_0_1_n_n_wf : DotDims.WF S512x512 S512x512 S512x512 [1] [0] [0] [1] [] []

variable [Facts₀]

def gather_S65536x512_S16384x1_S16384x512_1_0_n_n_0_1_1512 : GatherDims S65536x512 S16384x1 S16384x512 where
  offsetDims := [1]
  collapsedSliceDims := [0]
  operandBatchingDims := []
  startIndicesBatchingDims := []
  startIndexMap := [0]
  indexVectorDim := 1
  sliceSizes := ![1, 512]
  wf := gather_S65536x512_S16384x1_S16384x512_1_0_n_n_0_1_1512_wf
def dot_S512x16384_S16384x512_S512x512_1_0_0_1_n_n : DotDims S512x16384 S16384x512 S512x512 where
  lhsContracting := [1]
  rhsContracting := [0]
  lhsNonContracting := [0]
  rhsNonContracting := [1]
  lhsBatch := []
  rhsBatch := []
  wf := dot_S512x16384_S16384x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.Spec.lean ====
/-
  The mathematics both programs compute, stated once over the extended reals.

  Inputs: two matrices `a`, `b` of shape [32768, 512] and a vector `perm` of 32768 row numbers.
  Both programs end in the SAME closing chain of host operations (`tail`) applied to three values:
  a 512 × 512 matrix `cA`, a 512 × 512 matrix `cB` and a scalar `s`:

    result = 25 · (s / 2²⁴) + 1 · sqrt (Σ ((cA / 16383 − I) · (cB / 16383 − I))²).

  What differs is how `cA`, `cB`, `s` are reached. The reference gathers the rows `perm[0:16384]` and
  `perm[16384:32768]` and forms the two Gram matrices of the gathered rows; the kernel forms the Gram matrix of ALL
  rows (`gr`) and the Gram matrix weighted by the 0/1 indicator of the rows the first half of `perm` names (`wg`),
  and takes their difference for the second. When `perm` is a permutation of the row numbers these agree.
-/
import Idealize.ShloMosaic.PureOps.Ideal
import Idealize.ShloMosaic.Lib.ValueIdx

noncomputable section

open scoped BigOperators

namespace Cert.Vic

open Idealize.ShloMosaic Idealize.ShloMosaic.ValueIdx

abbrev SND : Shape := ⟨2, ![32768, 512]⟩
abbrev SN : Shape := ⟨1, ![32768]⟩
abbrev SDD : Shape := ⟨2, ![512, 512]⟩
abbrev S0 : Shape := ⟨0, ![]⟩

/-- The closing chain of host operations both programs share, as ONE function of the two 512 × 512 matrices and the
    scalar: `25 · (s / 2²⁴) + 1 · sqrt (Σ ((cA / 16383 − I) · (cB / 16383 − I))²)`, each operation the printed one. -/
def tail (hb : S0.BroadcastsInDim SDD (![] : Fin 0 → Fin SDD.rank)) (hr : SDD.ReducesTo [0, 1] S0) (h0 : 0 < S0.numel)
    (d : DotDims SDD SDD SDD) (prec : Option ContractPrecision)
    (cA cB : FVec Ideal SDD .f32) (s : FVec Ideal S0 .f32) : FVec Ideal S0 .f32 :=
  let rl : FVec Ideal S0 .f32 := Host.divf s (constant (F := Ideal) S0 .f32 0x4B800000#32)
  let eye : FVec Ideal SDD .f32 :=
    uitofp .f32 (cmpi .eq (addi (iotaInDim SDD 32 0) (broadcastInDim SDD ![] hb (constantI S0 32 0#32))) (iotaInDim SDD 32 1))
  let den : FVec Ideal SDD .f32 := broadcastInDim SDD ![] hb (constant (F := Ideal) S0 .f32 0x467FFC00#32)
  let c1 : FVec Ideal SDD .f32 := subf (Host.divf cA den) eye
  let c2 : FVec Ideal SDD .f32 := subf (Host.divf cB den) eye
  let p : FVec Ideal SDD .f32 := Host.dotGeneral d prec c1 c2
  let q : FVec Ideal SDD .f32 := mulf p p
  let fr : FVec Ideal S0 .f32 := Host.sqrt (Host.reduceAdd q (constant (F := Ideal) S0 .f32 0x00000000#32) hr h0)
  addf (mulf (constant (F := Ideal) S0 .f32 0x41C80000#32) rl) (mulf (constant (F := Ideal) S0 .f32 0x3F800000#32) fr)

/-- The closing chain does not depend on which proofs of its shape facts it is given, on the record's proof field, nor —
    over the extended reals, where a product of matrices is the exact sum — on the precision attribute. -/
theorem tail_congr (hb hb' : S0.BroadcastsInDim SDD (![] : Fin 0 → Fin SDD.rank)) (hr hr' : SDD.ReducesTo [0, 1] S0)
    (h0 h0' : 0 < S0.numel) (d d' : DotDims SDD SDD SDD) (hd : d = d') (prec prec' : Option ContractPrecision)
    (cA cB : FVec Ideal SDD .f32) (s : FVec Ideal S0 .f32) :
    tail hb hr h0 d prec cA cB s = tail hb' hr' h0' d' prec' cA cB s := by
  subst hd; rfl

/-- The Gram matrix of all rows, entry (i, j): `Σ_r a[r, i] · a[r, j]`. -/
def gr (a : SND.Idx → EReal) (i j : Fin 512) : EReal := ∑ r : Fin 32768, a (ix2 r i) * a (ix2 r j)

/-- The Gram matrix with row `r` weighted by `w r`, entry (i, j): `Σ_r (a[r, i] · w r) · a[r, j]`. -/
def wg (a : SND.Idx → EReal) (w : Fin 32768 → EReal) (i j : Fin 512) : EReal :=
  ∑ r : Fin 32768, (a (ix2 r i) * w r) * a (ix2 r j)

/-- The sum of squared differences over all entries. -/
def sqd (a b : SND.Idx → EReal) : EReal :=
  ∑ r : Fin 32768, ∑ l : Fin 512, (a (ix2 r l) - b (ix2 r l)) * (a (ix2 r l) - b (ix2 r l))

/-- Position `e` of the first half of a vector of 32768. -/
def lo (e : Fin 16384) : Fin 32768 := ⟨e.val, by omega⟩
/-- Position `e` of the second half. -/
def hi (e : Fin 16384) : Fin 32768 := ⟨16384 + e.val, by omega⟩

/-- The Gram matrix of the rows a list of 16384 row numbers names: `Σ_e a[row e, i] · a[row e, j]`. -/
def gg (a : SND.Idx → EReal) (row : Fin 16384 → Fin 32768) (i j : Fin 512) : EReal :=
  ∑ e : Fin 16384, a (ix2 (row e) i) * a (ix2 (row e) j)

/-- The 0/1 indicator of the rows the first half of `σ` names. -/
def ind (σ : Fin 32768 → Fin 32768) (r : Fin 32768) : EReal := if ∃ e : Fin 16384, σ (lo e) = r then 1 else 0

/-- The same four as arrays: the 512 × 512 matrices the closing chain takes, and the scalar. -/
def grM (a : SND.Idx → EReal) : FVec Ideal SDD .f32 := fun y => gr a (y 0) (y 1)
def wgM (a : SND.Idx → EReal) (w : Fin 32768 → EReal) : FVec Ideal SDD .f32 := fun y => wg a w (y 0) (y 1)
def ggM (a : SND.Idx → EReal) (row : Fin 16384 → Fin 32768) : FVec Ideal SDD .f32 := fun y => gg a row (y 0) (y 1)
def sqdS (a b : SND.Idx → EReal) : FVec Ideal S0 .f32 := fun _ => sqd a b

end Cert.Vic

end
-- ==== Proof.Bridge.lean ====
/-
  Why the two roads to the covariance sums agree when `σ` is a permutation of the 32768 row numbers.

  The rows the first half of `σ` names are distinct, so summing over those positions is summing over the rows
  weighted by their 0/1 indicator (`gg_lo`). The rows the second half names are exactly the other rows, so their sum
  is the sum over all rows minus the first (`gg_hi`) — a cancellation, which on the extended reals needs every entry
  finite.
-/
import proofs.«418193_j31361851195491_2_alg».proof.Proof.Spec

noncomputable section

open scoped BigOperators

namespace Cert.Vic

open Idealize.ShloMosaic Idealize.ShloMosaic.ValueIdx

/-- Distinct positions of the first half are distinct positions of the whole. -/
theorem lo_injective : Function.Injective lo := by
  intro x y h
  have := congrArg Fin.val h
  exact Fin.ext (by simpa [lo] using this)

/-- A term weighted by the indicator is the plain term on the rows the first half of `σ` names and zero on the
    others; this holds for every extended real, since `1` is neutral and `0` absorbs. -/
theorem mul_ind_mul (σ : Fin 32768 → Fin 32768) (r : Fin 32768) (x y : EReal) :
    (x * ind σ r) * y = if ∃ e : Fin 16384, σ (lo e) = r then x * y else 0 := by
  unfold ind
  split_ifs
  · rw [mul_one]
  · rw [mul_zero, zero_mul]

/-- Summing `f` at the rows the first half of a permutation names is summing `f` over all rows with the rows it
    does not name zeroed: the named rows are distinct, so the first sum is the sum over their set. -/
theorem sum_lo_eq_sum_ite (σ : Equiv.Perm (Fin 32768)) (f : Fin 32768 → EReal) :
    ∑ e : Fin 16384, f (σ (lo e)) = ∑ r : Fin 32768, if ∃ e : Fin 16384, σ (lo e) = r then f r else 0 := by
  classical
  rw [← Finset.sum_filter]
  have himg : (Finset.univ.filter fun r : Fin 32768 => ∃ e : Fin 16384, σ (lo e) = r)
      = Finset.univ.image (fun e : Fin 16384 => σ (lo e)) := by
    ext r
    simp
  rw [himg, Finset.sum_image]
  intro x _ y _ h
  exact lo_injective (σ.injective h)

theorem gg_lo (a : SND.Idx → EReal) (σ : Equiv.Perm (Fin 32768)) (i j : Fin 512) :
    gg a (fun e => σ (lo e)) i j = wg a (ind σ) i j := by
  unfold gg wg
  rw [sum_lo_eq_sum_ite σ (fun r => a (ix2 r i) * a (ix2 r j))]
  refine Finset.sum_congr rfl fun r _ => ?_
  rw [mul_ind_mul]

/-- A sum over all 32768 positions is the sum over the first half plus the sum over the second half. -/
theorem sum_halves (g : Fin 32768 → EReal) :
    ∑ p : Fin 32768, g p = ∑ e : Fin 16384, g (lo e) + ∑ e : Fin 16384, g (hi e) := by
  exact Fin.sum_univ_add (a := 16384) (b := 16384) (f := g)

/-- A finite sum of extended reals that are all real numbers is a real number. -/
theorem exists_real_sum {ι : Type} (s : Finset ι) (f : ι → EReal) (hf : ∀ k, ∃ x : ℝ, f k = (x : EReal)) :
    ∃ x : ℝ, ∑ k ∈ s, f k = (x : EReal) := by
  classical
  induction s using Finset.induction_on with
  | empty => exact ⟨0, by simp⟩
  | insert k s hk ih =>
    obtain ⟨x, hx⟩ := ih
    obtain ⟨y, hy⟩ := hf k
    exact ⟨y + x, by rw [Finset.sum_insert hk, hx, hy, EReal.coe_add]⟩

theorem gg_hi (a : SND.Idx → EReal) (ha : ∀ y, ∃ x : ℝ, a y = (x : EReal)) (σ : Equiv.Perm (Fin 32768)) (i j : Fin 512) :
    gg a (fun e => σ (hi e)) i j = gr a i j - wg a (ind σ) i j := by
  -- the sum over all rows, re-indexed by `σ` and split into the two halves of the positions
  have hsplit : gr a i j = gg a (fun e => σ (lo e)) i j + gg a (fun e => σ (hi e)) i j := by
    unfold gr gg
    rw [← Equiv.sum_comp σ (fun r => a (ix2 r i) * a (ix2 r j))]
    exact sum_halves (fun p => a (ix2 (σ p) i) * a (ix2 (σ p) j))
  -- the first half's sum is a real number, so it cancels
  obtain ⟨x, hx⟩ : ∃ x : ℝ, gg a (fun e => σ (lo e)) i j = (x : EReal) := by
    unfold gg
    refine exists_real_sum _ _ fun e => ?_
    obtain ⟨u, hu⟩ := ha (ix2 (σ (lo e)) i)
    obtain ⟨v, hv⟩ := ha (ix2 (σ (lo e)) j)
    exact ⟨u * v, by rw [hu, hv, EReal.coe_mul]⟩
  rw [hsplit, ← gg_lo, hx, EReal.add_sub_cancel_left]

end Cert.Vic

end
-- ==== Proof.PreFacts.lean ====
/-
  What the precondition says of its three inputs: every entry of the two matrices is a real number, and the index vector
  is a permutation of 0 … 32767 (each row number is held by exactly one position).
-/
import proofs.«418193_j31361851195491_2_alg».proof.Pre_finite_inputs
import proofs.«418193_j31361851195491_2_alg».proof.Proof.Gen.Pre_finite_inputs
import proofs.«418193_j31361851195491_2_alg».proof.Proof.Spec
import Idealize.ShloMosaic.Lib.StableHlo.Predicate
import Idealize.ShloMosaic.Lib.ReduceAll

noncomputable section

namespace Cert.Vic

open Idealize.ShloMosaic Idealize.ShloMosaic.ValueIdx

namespace PreFacts

/-- The scalar shape has one index. -/
theorem scalarIdx_subsingleton : Subsingleton Cert.Pre_finite_inputs.S_.Idx := ⟨fun a b => funext fun d => d.elim0⟩

/-! ## The element facts -/

/-- An extended real whose absolute value (the larger of itself and its negation) is below the value of the word
    0x7F800000 (which is +∞) is a real number: it is neither +∞ nor −∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  induction x using EReal.rec with
  | bot => simp at h
  | top => simp at h
  | coe r => exact ⟨r, rfl⟩

/-! ## The combinatorics: a list of n words in which every number below n occurs is a permutation -/

/-- If among `n` words (`n` at most 2³²) every number `q < n` is held, as a 32-bit word, by exactly one position, then
    the words are the values of a permutation of the numbers below `n`. Let `g q` be the position that holds `q`; two
    numbers with the same position have the same word, hence are equal, so `g` is injective, hence bijective on the
    finite set; the permutation is its inverse. -/
theorem perm_of_unique_positions {n : ℕ} (hn : n ≤ 2 ^ 32) (w : Fin n → BitVec 32)
    (hc : ∀ q : Fin n, (Finset.univ.filter (fun e : Fin n => w e = BitVec.ofNat 32 q.val)).card = 1) :
    ∃ σ : Equiv.Perm (Fin n), ∀ e : Fin n, w e = BitVec.ofNat 32 (σ e).val := by
  classical
  have hex : ∀ q : Fin n, ∃ e : Fin n, w e = BitVec.ofNat 32 q.val := fun q => by
    obtain ⟨e, he⟩ := Finset.card_eq_one.1 (hc q)
    have hmem : e ∈ Finset.univ.filter (fun e : Fin n => w e = BitVec.ofNat 32 q.val) := by
      rw [he]; exact Finset.mem_singleton_self e
    exact ⟨e, (Finset.mem_filter.1 hmem).2⟩
  choose g hg using hex
  have hinj : Function.Injective g := by
    intro q q' e
    have h1 : BitVec.ofNat 32 q.val = BitVec.ofNat 32 q'.val := by rw [← hg q, ← hg q', e]
    have h2 := congrArg BitVec.toNat h1
    rw [BitVec.toNat_ofNat, BitVec.toNat_ofNat, Nat.mod_eq_of_lt (lt_of_lt_of_le q.isLt hn),
      Nat.mod_eq_of_lt (lt_of_lt_of_le q'.isLt hn)] at h2
    exact Fin.ext h2
  have hbij : Function.Bijective g := ⟨hinj, Finite.injective_iff_surjective.1 hinj⟩
  refine ⟨(Equiv.ofBijective g hbij).symm, fun e => ?_⟩
  have h3 := hg ((Equiv.ofBijective g hbij).symm e)
  rwa [show g ((Equiv.ofBijective g hbij).symm e) = e from Equiv.ofBijective_apply_symm_apply g hbij e] at h3

/-! ## Reading the printed predicate -/

section Read
open Cert.Pre_finite_inputs Cert.Pre_finite_inputs.Facts StableHlo.Predicate

variable [Cert.Pre_finite_inputs.Facts]

/-- The two ways of writing the rank-1 index at coordinate `e` agree. -/
theorem ofFin_eq_ix1 {n : ℕ} (e : Fin n) : Shape.Idx.ofFin e = ix1 e := by
  funext a; match a with | ⟨0, _⟩ => rfl

/-- The printed comparison mask of the index vector against the row numbers: the vector laid as a column along the rows
    of the square, the row numbers 0 … 32767 laid as a row down its columns, compared for equality. -/
def eqMask (p : IVec SN 32) : IVec S32768x32768 1 :=
  cmpi .eq
    (broadcastInDim S32768x32768 ![0, 1] bcast_S32768x1_S32768x32768_0_1 (broadcastInDim S32768x1 ![0] bcast_S32768_S32768x1_0 p))
    (broadcastInDim S32768x32768 ![0, 1] bcast_S1x32768_S32768x32768_0_1
      (broadcastInDim S1x32768 ![1] bcast_S32768_S1x32768_1 (iotaInDim S32768 32 0)))

/-- The mask at (position e, row number q) is set exactly when position e of the vector holds the word of q. -/
theorem eqMask_iff (p : IVec SN 32) (e q : Fin 32768) : eqMask p (ij e q) = 1#1 ↔ p (ix1 e) = BitVec.ofNat 32 q.val := by
  unfold eqMask
  show IntOp.cmpi .eq _ _ = 1#1 ↔ _
  rw [cmpi_eq_iff, bcast_rows, bcast_cols, iota_apply, ofFin_eq_ix1]

/-- The precondition read: both matrices hold reals only, and every row number is held by exactly one position of the
    index vector. -/
theorem pre_read (a b : FVec Ideal SND .f32) (p : IVec SN 32)
    (h : Cert.Pre_finite_inputs.fn (F := Ideal) a b p = fun _ => 1#1) :
    (∀ y, ∃ x : ℝ, a y = (x : EReal)) ∧ (∀ y, ∃ x : ℝ, b y = (x : EReal)) ∧
      ∀ q : Fin 32768, (Finset.univ.filter (fun e : Fin 32768 => p (ix1 e) = BitVec.ofNat 32 q.val)).card = 1 := by
  haveI := scalarIdx_subsingleton
  have e := congrFun h ValueIdx.ix0
  dsimp only [Cert.Pre_finite_inputs.fn, Cert.Pre_finite_inputs.fn_part1] at e
  change IntOp.andi (IntOp.andi _ _) _ = 1#1 at e
  obtain ⟨hab, hp⟩ := IntOp.andi_eq_one.1 e
  obtain ⟨ha, hb⟩ := IntOp.andi_eq_one.1 hab
  refine ⟨fun y => ?_, fun y => ?_, fun q => ?_⟩
  · -- every element of the first all-reduction is set: |a y| < +∞
    exact real_of_abs_lt_inf (a y) (Host.reduce_andi_all _ _ _ _ _ ha y)
  · exact real_of_abs_lt_inf (b y) (Host.reduce_andi_all _ _ _ _ _ hb y)
  · -- the count of set mask bits in column q equals the broadcast 1
    have hq := Host.reduce_andi_all _ _ _ _ _ hp (ix1 q)
    have hcnt : (Host.reduce IntOp.addi (extui 32 (eqMask p) natLt_1_32) (constantI S_ 32 0#32)
          reducesTo_S32768x32768_S32768_d0 h_S_ (ix1 q)).toNat
        = (Finset.univ.filter (fun e : Fin 32768 => eqMask p (ij e q) = 1#1)).card :=
      toNat_reduce_count_rows (by norm_num) (eqMask p) natLt_1_32 reducesTo_S32768x32768_S32768_d0 h_S_ (ix1 q)
    have hone : Host.reduce IntOp.addi (extui 32 (eqMask p) natLt_1_32) (constantI S_ 32 0#32)
        reducesTo_S32768x32768_S32768_d0 h_S_ (ix1 q) = 1#32 := cmpi_eq_iff.1 hq
    rw [hone] at hcnt
    rw [Finset.filter_congr (fun e _ => (eqMask_iff p e q).symm)]
    exact hcnt.symm

end Read

end PreFacts

/-- THE PRECONDITION DECODED: every entry of the two matrices is a real number, and the index vector lists the values of a
    permutation of the row numbers 0 … 32767. -/
theorem pre_decode [Cert.Pre_finite_inputs.Facts] (a b : FVec Ideal SND .f32) (p : IVec SN 32)
    (h : Cert.Pre_finite_inputs.fn (F := Ideal) a b p = fun _ => 1#1) :
    (∀ y, ∃ x : ℝ, a y = (x : EReal)) ∧ (∀ y, ∃ x : ℝ, b y = (x : EReal)) ∧
      ∃ σ : Equiv.Perm (Fin 32768), ∀ e : Fin 32768, p (ix1 e) = BitVec.ofNat 32 (σ e).val := by
  obtain ⟨ha, hb, hc⟩ := PreFacts.pre_read a b p h
  exact ⟨ha, hb, PreFacts.perm_of_unique_positions (by norm_num) (fun e => p (ix1 e)) hc⟩

end Cert.Vic

end
-- ==== Proof.KPieces.lean ====
/-
  What one grid step leaves in the three accumulators and, at a core's last step, in the three output blocks, as pure
  terms of the step's input blocks and of what the step before left. A core runs eight steps over its 16384 rows, 2048
  rows a step: the first step resets the accumulators to zero before adding, every step adds, the last step also copies
  the accumulators out.
-/
import proofs.«418193_j31361851195491_2_alg».proof.Proof.Gen.KernelIdeal.Frame
import Idealize.ShloMosaic.Lib.Pipeline.Value

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 block, however spelt, are the constant zero. -/
theorem hz2 : (![0, 0] : Fin 2 → Nat) = fun _ => 0 := funext fun a => by fin_cases a <;> rfl

/-- The zero offsets of a rank-3 block are the constant zero. -/
theorem hz3 : (![0, 0, 0] : Fin 3 → Nat) = fun _ => 0 := funext fun a => by fin_cases a <;> rfl

/-- At a core's first step the first accumulator is reset to zero and then takes the step's masked product: what it holds is the update of the zero block. -/
theorem sA0 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : cond0_0 i) (hc1 : ¬cond0_1 i)
    (x0 : Vec F S2048x512 .f32) (x1 : Vec F S2048x512 .f32) (x2 : Vec F S2048x1 .f32) :
    sout0_A_0 c i arg2 harg2 arg3 harg3 arg4 harg4 arg5 harg5 arg6 harg6 arg7 harg7 arg8 harg8 arg9 harg9 arg10 harg10 hc0 hc1 x0 x1 x2 = k0_pay10 x0 x2 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- Likewise the second accumulator at a core's first step: the unmasked product added to the zero block. -/
theorem sA1 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : cond0_0 i) (hc1 : ¬cond0_1 i)
    (x0 : Vec F S2048x512 .f32) (x1 : Vec F S2048x512 .f32) (x2 : Vec F S2048x1 .f32) :
    sout0_A_1 c i arg2 harg2 arg3 harg3 arg4 harg4 arg5 harg5 arg6 harg6 arg7 harg7 arg8 harg8 arg9 harg9 arg10 harg10 hc0 hc1 x0 x1 x2 = k0_pay1 (k0_pay11 x0 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- Likewise the scalar accumulator at a core's first step: the step's sum of squared differences added to zero. -/
theorem sA2 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : cond0_0 i) (hc1 : ¬cond0_1 i)
    (x0 : Vec F S2048x512 .f32) (x1 : Vec F S2048x512 .f32) (x2 : Vec F S2048x1 .f32) :
    sout0_A_2 c i arg2 harg2 arg3 harg3 arg4 harg4 arg5 harg5 arg6 harg6 arg7 harg7 arg8 harg8 arg9 harg9 arg10 harg10 hc0 hc1 x0 x1 x2 = k0_pay8 x0 x1 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a middle step the first accumulator is what the step before left plus the step's masked product. -/
theorem sB0 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : ¬cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay10 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a middle step the second accumulator is what the step before left plus the step's unmasked product. -/
theorem sB1 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : ¬cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_B_1 c i arg2 harg2 arg3 harg3 arg4 harg4 arg5 harg5 arg6 harg6 arg7 harg7 arg8 harg8 arg9 harg9 arg10 harg10 hc0 hc1 x0 x1 x2 xs0 xs1 xs2 = k0_pay1 (k0_pay11 x0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a middle step the scalar accumulator is what the step before left plus the step's sum of squared differences. -/
theorem sB2 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : ¬cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_B_2 c i arg2 harg2 arg3 harg3 arg4 harg4 arg5 harg5 arg6 harg6 arg7 harg7 arg8 harg8 arg9 harg9 arg10 harg10 hc0 hc1 x0 x1 x2 xs0 xs1 xs2 = k0_pay8 x0 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S1x1) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the first accumulator is updated as at a middle step. -/
theorem sC0 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay10 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the second accumulator is updated as at a middle step. -/
theorem sC1 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_C_1 c i arg2 harg2 arg3 harg3 arg4 harg4 arg5 harg5 arg6 harg6 arg7 harg7 arg8 harg8 arg9 harg9 arg10 harg10 hc0 hc1 x0 x1 x2 xs0 xs1 xs2 = k0_pay1 (k0_pay11 x0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S512x512) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the scalar accumulator is updated as at a middle step. -/
theorem sC2 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    sout0_C_2 c i arg2 harg2 arg3 harg3 arg4 harg4 arg5 harg5 arg6 harg6 arg7 harg7 arg8 harg8 arg9 harg9 arg10 harg10 hc0 hc1 x0 x1 x2 xs0 xs1 xs2 = k0_pay8 x0 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x1) hz2]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the first output block is the updated first accumulator, as a [1, 512, 512] block. -/
theorem oC3 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay2 (k0_pay10 x0 x2 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512x512) hz3]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the second output block is the updated second accumulator. -/
theorem oC4 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay3 (k0_pay1 (k0_pay11 x0 xs1)) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512x512) hz3]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

/-- At a core's last step the third output block is the updated scalar accumulator. -/
theorem oC5 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x1x1 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x1 .f32) (harg10 : arg10.IsWhole) (hc0 : ¬cond0_0 i) (hc1 : cond0_1 i)
    (x0 : Vec F S2048x512 .f32) (x1 : Vec F S2048x512 .f32) (x2 : Vec F S2048x1 .f32) (xs0 : Vec F S512x512 .f32) (xs1 : Vec F S512x512 .f32) (xs2 : Vec F S1x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay4 (k0_pay8 x0 x1 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x1x1) hz3]
  simp only [View.readAt_eq_ld, harg2.read_unread, harg3.read_unread, harg4.read_unread, harg8.read_unread, harg9.read_unread, harg10.read_unread, View.ld_unit_zero (S := S2048x512) hz2, View.ld_unit_zero (S := S2048x1) hz2, View.ld_unit_zero (S := S512x512) hz2, View.ld_unit_zero (S := S1x1) hz2, View.readCov_unit_zero (S := S512x512) _ hz2, View.readCov_unit_zero (S := S1x1) _ hz2]

end Cert.KernelIdeal.Val

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.KPay.lean ====
/-
  The kernel body's arithmetic read at an index, over the extended reals. With `x0`, `x1` the step's [2048, 512]
  blocks of the two matrices and `x2` its [2048, 1] block of the 0/1 row mask:
  the first accumulator gains `Σ_q (x0[q, i] · x2[q, 0]) · x0[q, j]` at (i, j), the second `Σ_q x0[q, i] · x0[q, j]`,
  the scalar one `Σ_q Σ_l (x0[q, l] − x1[q, l])²`; a change of float format is the identity, the reset stores zero, and
  the copies out only add a leading unit axis.
-/
import proofs.«418193_j31361851195491_2_alg».proof.Proof.Gen.KernelIdeal.Skeleton
import proofs.«418193_j31361851195491_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Idealize.ShloMosaic Idealize.ShloMosaic.ValueIdx
open Cert.KernelIdeal Cert.KernelIdeal.Gen

/-! ## The reset: a splat of the zero word, cast to its own shape -/

theorem pay5_apply (y : S512x512.Idx) : k0_pay5 (F := Ideal) y = 0 := by
  unfold k0_pay5
  simp only [shapeCast_self, broadcast_apply]
  exact Ideal.ofBits_zero_f32

theorem pay6_apply (y : S512x512.Idx) : k0_pay6 (F := Ideal) y = 0 := by
  unfold k0_pay6
  simp only [shapeCast_self, broadcast_apply]
  exact Ideal.ofBits_zero_f32

theorem pay7_apply (y : S1x1.Idx) : k0_pay7 (F := Ideal) y = 0 := by
  unfold k0_pay7
  simp only [shapeCast_self, broadcast_apply]
  exact Ideal.ofBits_zero_f32

/-! ## The product of two [2048, 512] blocks contracted over their rows

Both operands contract their axis 0 and keep their axis 1: the left operand is read at (q, i), the right at (q, j),
and the result at (i, j) is the sum over the 2048 rows q of the products. -/

/-- The left operand's row coordinate is the contraction position's one coordinate. -/
private theorem gram_lhs_0 (y : S512x512.Idx) (q : dot_S2048x512_S2048x512_S512x512_0_0_1_1_n_n.contr.Idx) :
    (dot_S2048x512_S2048x512_S512x512_0_0_1_1_n_n.lhsIdx y q 0).val = (q ⟨0, by decide⟩).val :=
  dot_S2048x512_S2048x512_S512x512_0_0_1_1_n_n.lhsIdx_val_of_single rfl y q

/-- The left operand's column coordinate is the result's row. -/
private theorem gram_lhs_1 (y : S512x512.Idx) (q : dot_S2048x512_S2048x512_S512x512_0_0_1_1_n_n.contr.Idx) :
    (dot_S2048x512_S2048x512_S512x512_0_0_1_1_n_n.lhsIdx y q 1).val = (y 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl

/-- The right operand's row coordinate is the contraction position's one coordinate. -/
private theorem gram_rhs_0 (y : S512x512.Idx) (q : dot_S2048x512_S2048x512_S512x512_0_0_1_1_n_n.contr.Idx) :
    (dot_S2048x512_S2048x512_S512x512_0_0_1_1_n_n.rhsIdx y q 0).val = (q ⟨0, by decide⟩).val :=
  dot_S2048x512_S2048x512_S512x512_0_0_1_1_n_n.rhsIdx_val_of_single rfl y q

/-- The right operand's column coordinate is the result's column. -/
private theorem gram_rhs_1 (y : S512x512.Idx) (q : dot_S2048x512_S2048x512_S512x512_0_0_1_1_n_n.contr.Idx) :
    (dot_S2048x512_S2048x512_S512x512_0_0_1_1_n_n.rhsIdx y q 1).val = (y 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- Into the zero accumulator, the product at (i, j) is `Σ_q L[q, i] · R[q, j]`. -/
private theorem gram_apply (L R : FVec Ideal S2048x512 .bf16) (i j : Fin 512) :
    matmul dot_S2048x512_S2048x512_S512x512_0_0_1_1_n_n none L R (constant (F := Ideal) S512x512 .f32 0x00000000#32) (ix2 i j)
      = ∑ q : Fin 2048, L (ix2 q i) * R (ix2 q j) := by
  simp only [matmul]
  rw [Ideal.matmul_constant_zero_apply, ← Equiv.sum_comp (contrEquiv1 dot_S2048x512_S2048x512_S512x512_0_0_1_1_n_n 2048 rfl rfl).symm]
  refine Finset.sum_congr rfl fun k _ => ?_
  have hk := contrEquiv1_symm_val dot_S2048x512_S2048x512_S512x512_0_0_1_1_n_n 2048 rfl rfl k
  have el : dot_S2048x512_S2048x512_S512x512_0_0_1_1_n_n.lhsIdx (ix2 i j) ((contrEquiv1 dot_S2048x512_S2048x512_S512x512_0_0_1_1_n_n 2048 rfl rfl).symm k) = ix2 k i := funext fun a => Fin.ext (by
    match a with
    | ⟨0, _⟩ => exact (gram_lhs_0 _ _).trans hk
    | ⟨1, _⟩ => exact gram_lhs_1 _ _)
  have er : dot_S2048x512_S2048x512_S512x512_0_0_1_1_n_n.rhsIdx (ix2 i j) ((contrEquiv1 dot_S2048x512_S2048x512_S512x512_0_0_1_1_n_n 2048 rfl rfl).symm k) = ix2 k j := funext fun a => Fin.ext (by
    match a with
    | ⟨0, _⟩ => exact (gram_rhs_0 _ _).trans hk
    | ⟨1, _⟩ => exact gram_rhs_1 _ _)
  rw [el, er]

/-! ## The two accumulations of products -/

theorem pay10_apply (x0 : Vec Ideal S2048x512 .f32) (x2 : Vec Ideal S2048x1 .f32) (acc : Vec Ideal S512x512 .f32)
    (i j : Fin 512) :
    k0_pay10 x0 x2 acc (ix2 i j)
      = acc (ix2 i j) + ∑ q : Fin 2048, (x0 (ix2 q i) * x2 (ix2 q (0 : Fin 1))) * x0 (ix2 q j) := by
  unfold k0_pay10 k0_pay9
  simp only [shapeCast_self, addf_apply]
  refine congrArg (acc (ix2 i j) + ·) ?_
  refine (gram_apply _ _ i j).trans ?_
  refine Finset.sum_congr rfl fun q _ => ?_
  simp only [truncf_apply, mulf_apply]
  rw [Cert.Lib.Keepdims.broadcastTo_a1_ab_apply]

theorem pay11_apply (x0 : Vec Ideal S2048x512 .f32) (acc : Vec Ideal S512x512 .f32) (i j : Fin 512) :
    k0_pay1 (k0_pay11 x0 acc) (ix2 i j) = acc (ix2 i j) + ∑ q : Fin 2048, x0 (ix2 q i) * x0 (ix2 q j) := by
  unfold k0_pay1 k0_pay11 k0_pay9
  simp only [shapeCast_self, addf_apply]
  refine congrArg (acc (ix2 i j) + ·) ?_
  refine (gram_apply _ _ i j).trans ?_
  refine Finset.sum_congr rfl fun q _ => ?_
  simp only [truncf_apply]

/-! ## The accumulation of squared differences

The inserted index of a one-axis sum, at the two reductions met here: over the columns of a [2048, 512] array the
index over row `q` with column `l` is (q, l); over the rows of a [2048, 1] column the index over the one entry with
row `q` is (q, 0). -/

private theorem lift_row (q : Fin 2048) (l : Fin 512) : reduces_S2048x512_S2048.lift (ix1 q) l = ix2 q l :=
  funext fun a => Fin.ext (match a with | ⟨0, _⟩ => rfl | ⟨1, _⟩ => rfl)

private theorem lift_col (q : Fin 2048) : reduces_S2048x1_S1.lift (ix1 (0 : Fin 1)) q = ix2 q (0 : Fin 1) :=
  funext fun a => Fin.ext (match a with | ⟨0, _⟩ => rfl | ⟨1, _⟩ => rfl)

theorem pay8_apply (x0 x1 : Vec Ideal S2048x512 .f32) (acc : Vec Ideal S1x1 .f32) :
    k0_pay8 x0 x1 acc (ix2 (0 : Fin 1) (0 : Fin 1))
      = acc (ix2 (0 : Fin 1) (0 : Fin 1))
        + ∑ q : Fin 2048, ∑ l : Fin 512, (x0 (ix2 q l) - x1 (ix2 q l)) * (x0 (ix2 q l) - x1 (ix2 q l)) := by
  unfold k0_pay8
  simp only [shapeCast_self, addf_apply]
  refine congrArg (acc (ix2 (0 : Fin 1) (0 : Fin 1)) + ·) ?_
  -- the [1] → [1, 1] cast reads the one entry of the sum over the rows
  refine (Cert.Lib.Keepdims.shapeCast_a_a1_apply _ _ (0 : Fin 1) (0 : Fin 1)).trans ?_
  refine (Ideal.multiReduction_add_single _ 0x00000000#32 reduces_S2048x1_S1 _ _ (ix1 (0 : Fin 1))).trans ?_
  show ∑ q : Fin 2048, _ = _
  refine Finset.sum_congr rfl fun q _ => ?_
  -- the [2048] → [2048, 1] cast reads, at (q, 0), the sum over the columns of row q
  refine (congrArg _ (lift_col q)).trans ?_
  refine (Cert.Lib.Keepdims.shapeCast_a_a1_apply _ _ q (0 : Fin 1)).trans ?_
  refine (Ideal.multiReduction_add_single _ 0x00000000#32 reduces_S2048x512_S2048 _ _ (ix1 q)).trans ?_
  show ∑ l : Fin 512, _ = _
  refine Finset.sum_congr rfl fun l _ => ?_
  refine (congrArg _ (lift_row q l)).trans ?_
  rfl

/-! ## The copies out: a leading unit axis added -/

theorem pay2_apply (v : Vec Ideal S512x512 .f32) (i j : Fin 512) :
    k0_pay2 v (ix3 (0 : Fin 1) i j) = v (ix2 i j) := by
  unfold k0_pay2
  exact shapeCast_ab_1ab_apply v _ (0 : Fin 1) i j

theorem pay3_apply (v : Vec Ideal S512x512 .f32) (i j : Fin 512) :
    k0_pay3 v (ix3 (0 : Fin 1) i j) = v (ix2 i j) := by
  unfold k0_pay3
  exact shapeCast_ab_1ab_apply v _ (0 : Fin 1) i j

theorem pay4_apply (v : Vec Ideal S1x1 .f32) :
    k0_pay4 v (ix3 (0 : Fin 1) (0 : Fin 1) (0 : Fin 1)) = v (ix2 (0 : Fin 1) (0 : Fin 1)) := by
  unfold k0_pay4
  exact shapeCast_ab_1ab_apply v _ (0 : Fin 1) (0 : Fin 1) (0 : Fin 1)

end Cert.KernelIdeal.Val

end
-- ==== Proof.KChain.lean ====
/-
  What the kernel's three result arrays hold after the run, entry by entry.

  Core `cc` (of two) walks its rows `cc · 16384 … cc · 16384 + 16383` in eight steps of 2048 rows, adding each step's
  products into its accumulators and copying them out at its last step. So block `cc` of each result array is the sum
  over that core's rows: of `(a[r, i] · mask[r]) · a[r, j]`, of `a[r, i] · a[r, j]`, and of `Σ_l (a[r, l] − b[r, l])²`.
  The sums are written over ALL rows with the rows of the other core contributing zero.
-/
import proofs.«418193_j31361851195491_2_alg».proof.Proof.Gen.KernelIdeal.Frame
import proofs.«418193_j31361851195491_2_alg».proof.Proof.KPieces
import proofs.«418193_j31361851195491_2_alg».proof.Proof.KPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

namespace Chain

/-! ## Sums over all 32768 rows, filtered to a stretch of rows -/

/-- The sum over the 2048 rows of step `n` is the sum over all rows of the terms of the rows
    `2048 n ≤ r < 2048 (n + 1)`: the rows of the stretch are `r = 2048 n + q`, `q < 2048`, each once. -/
theorem sum_step {M : Type*} [AddCommMonoid M] (f : Fin 32768 → M) (n : ℕ) (hn : n < 16) :
    ∑ q : Fin 2048, f ⟨2048 * n + q.val, by omega⟩
      = ∑ r : Fin 32768, if 2048 * n ≤ r.val ∧ r.val < 2048 * (n + 1) then f r else 0 := by
  rw [← Finset.sum_filter]
  refine Finset.sum_bij (fun q _ => (⟨2048 * n + q.val, by omega⟩ : Fin 32768)) ?_ ?_ ?_ ?_
  · intro q _
    rw [Finset.mem_filter]
    exact ⟨Finset.mem_univ _, by dsimp only; omega⟩
  · intro q₁ _ q₂ _ h
    have h' := congrArg Fin.val h
    dsimp only at h'
    exact Fin.ext (by omega)
  · intro r hr
    rw [Finset.mem_filter] at hr
    exact ⟨⟨r.val - 2048 * n, by omega⟩, Finset.mem_univ _, Fin.ext (by dsimp only; omega)⟩
  · intro q _
    rfl

/-- Two adjacent stretches of rows add up to their union. -/
theorem sum_stretch_add {M : Type*} [AddCommMonoid M] (f : Fin 32768 → M) (lo mid hi : ℕ) (h₁ : lo ≤ mid) (h₂ : mid ≤ hi) :
    (∑ r : Fin 32768, if lo ≤ r.val ∧ r.val < mid then f r else 0)
        + (∑ r : Fin 32768, if mid ≤ r.val ∧ r.val < hi then f r else 0)
      = ∑ r : Fin 32768, if lo ≤ r.val ∧ r.val < hi then f r else 0 := by
  rw [← Finset.sum_add_distrib]
  refine Finset.sum_congr rfl fun r _ => ?_
  by_cases a : lo ≤ r.val ∧ r.val < mid
  · rw [if_pos a, if_neg (by omega), if_pos (by omega), add_zero]
  · by_cases b : mid ≤ r.val ∧ r.val < hi
    · rw [if_neg a, if_pos b, if_pos (by omega), zero_add]
    · rw [if_neg a, if_neg b, if_neg (by omega), add_zero]

/-- THE RUNNING SUM. A quantity that starts afresh (from zero) at the steps `n ≡ 0 (mod 8)` and otherwise adds step `n`'s
    2048 rows onto what step `n − 1` left holds, after step `n`, the sum over the rows from the first row of `n`'s core
    (`16384 · (n / 8)`) up to the last row of step `n`. -/
theorem running_sum {M : Type*} [AddCommMonoid M] {N : ℕ} (hN : N = 16) (f : Fin 32768 → M) (a : (n : ℕ) → n < N → M)
    (first : ∀ (n : ℕ) (hn : n < N), n % 8 = 0 → a n hn = 0 + ∑ q : Fin 2048, f ⟨2048 * n + q.val, by omega⟩)
    (step : ∀ (n : ℕ) (hn : n < N), ¬n % 8 = 0 →
      a n hn = a (n - 1) (by omega) + ∑ q : Fin 2048, f ⟨2048 * n + q.val, by omega⟩) :
    ∀ (n : ℕ) (hn : n < N),
      a n hn = ∑ r : Fin 32768, if 16384 * (n / 8) ≤ r.val ∧ r.val < 2048 * (n + 1) then f r else 0 := by
  intro n
  induction n with
  | zero =>
    intro hn
    rw [first 0 hn rfl, zero_add, sum_step f 0 (by omega)]
  | succ k ih =>
    intro hn
    by_cases h0 : (k + 1) % 8 = 0
    · rw [first (k + 1) hn h0, zero_add, sum_step f (k + 1) (by omega)]
      exact Finset.sum_congr rfl fun r _ => if_congr (by omega) rfl rfl
    · rw [step (k + 1) hn h0, sum_step f (k + 1) (by omega)]
      show a k _ + _ = _
      rw [ih (by omega), sum_stretch_add f _ _ _ (by omega) (by omega)]
      exact Finset.sum_congr rfl fun r _ => if_congr (by omega) rfl rfl

end Chain

variable (m : (ℓ : Loc nD τ sig) → Buf (Elt Ideal) ℓ)

/-- The two matrices and the [32768, 1] row mask as the kernel region finds them. -/
abbrev arrA (c : Dev nD) : Vec Ideal S32768x512 .f32 := V m c main_arg0
abbrev arrB (c : Dev nD) : Vec Ideal S32768x512 .f32 := V m c main_arg1
abbrev arrM (c : Dev nD) : Vec Ideal S32768x1 .f32 := V m c main_v10

/-- The three result arrays after the region. -/
abbrev out3 (c : Dev nD) : Vec Ideal S2x512x512 .f32 := (dats (F := Ideal) m 0 c).arrAt 3 cfg0.N
abbrev out4 (c : Dev nD) : Vec Ideal S2x512x512 .f32 := (dats (F := Ideal) m 0 c).arrAt 4 cfg0.N
abbrev out5 (c : Dev nD) : Vec Ideal S2x1x1 .f32 := (dats (F := Ideal) m 0 c).arrAt 5 cfg0.N

namespace Chain

/-! ## The blocks a step reads -/

/-- Step `t`'s blocks of the two matrices and of the mask: 2048 rows each. -/
abbrev blkA (c : Dev nD) (t : Fin cfg0.N) : Vec Ideal S2048x512 .f32 := iblk m c 0 t
abbrev blkB (c : Dev nD) (t : Fin cfg0.N) : Vec Ideal S2048x512 .f32 := iblk m c 1 t
abbrev blkM (c : Dev nD) (t : Fin cfg0.N) : Vec Ideal S2048x1 .f32 := iblk m c 2 t

/-- The block indices over the grid: step `t` (core `t / 8`, its step `t % 8`) reads row block `t` of each input and
    writes block `t / 8` of each result. -/
theorem idx_grid : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

/-- Row `q` of step `t`'s block of the first matrix is row `2048 t + q` of the matrix. -/
theorem blkA_apply (c : Dev nD) (t : Fin cfg0.N) (q : Fin 2048) (l : Fin 512) (r : Fin 32768)
    (hr : r.val = 2048 * t.val + q.val) : blkA m c t (ix2 q l) = arrA m c (ix2 r l) := by
  obtain ⟨e0, e1, -⟩ := idx_grid t
  show V m c main_arg0 (((cfg0.win 0).blk t).view.emb (ix2 q l)) = V m c main_arg0 (ix2 r l)
  refine congrArg (V m c main_arg0) (funext fun a => Fin.ext ?_)
  match a with
  | ⟨0, _⟩ => show win0_0.index t (0 : Fin 2) * 2048 + 1 * q.val = r.val; rw [e0, hr]; omega
  | ⟨1, _⟩ => show win0_0.index t (1 : Fin 2) * 512 + 1 * l.val = l.val; rw [e1]; omega

/-- Likewise for the second matrix. -/
theorem blkB_apply (c : Dev nD) (t : Fin cfg0.N) (q : Fin 2048) (l : Fin 512) (r : Fin 32768)
    (hr : r.val = 2048 * t.val + q.val) : blkB m c t (ix2 q l) = arrB m c (ix2 r l) := by
  obtain ⟨-, -, e0, e1, -⟩ := idx_grid t
  show V m c main_arg1 (((cfg0.win 1).blk t).view.emb (ix2 q l)) = V m c main_arg1 (ix2 r l)
  refine congrArg (V m c main_arg1) (funext fun a => Fin.ext ?_)
  match a with
  | ⟨0, _⟩ => show win0_1.index t (0 : Fin 2) * 2048 + 1 * q.val = r.val; rw [e0, hr]; omega
  | ⟨1, _⟩ => show win0_1.index t (1 : Fin 2) * 512 + 1 * l.val = l.val; rw [e1]; omega

/-- Likewise for the mask column. -/
theorem blkM_apply (c : Dev nD) (t : Fin cfg0.N) (q : Fin 2048) (l : Fin 1) (r : Fin 32768)
    (hr : r.val = 2048 * t.val + q.val) : blkM m c t (ix2 q l) = arrM m c (ix2 r l) := by
  obtain ⟨-, -, -, -, e0, e1, -⟩ := idx_grid t
  show V m c main_v10 (((cfg0.win 2).blk t).view.emb (ix2 q l)) = V m c main_v10 (ix2 r l)
  refine congrArg (V m c main_v10) (funext fun a => Fin.ext ?_)
  match a with
  | ⟨0, _⟩ => show win0_2.index t (0 : Fin 2) * 2048 + 1 * q.val = r.val; rw [e0, hr]; omega
  | ⟨1, _⟩ => show win0_2.index t (1 : Fin 2) * 1 + 1 * l.val = l.val; rw [e1]; omega

/-! ## What a step leaves in the three accumulators -/

/-- The three accumulators after step `n`. -/
abbrev acc0 (c : Dev nD) (n : ℕ) (hn : n < cfg0.N) : Vec Ideal S512x512 .f32 := (outsAt0 (F := Ideal) m c n hn).2.2.2.1
abbrev acc1 (c : Dev nD) (n : ℕ) (hn : n < cfg0.N) : Vec Ideal S512x512 .f32 := (outsAt0 (F := Ideal) m c n hn).2.2.2.2.1
abbrev acc2 (c : Dev nD) (n : ℕ) (hn : n < cfg0.N) : Vec Ideal S1x1 .f32 := (outsAt0 (F := Ideal) m c n hn).2.2.2.2.2

/-- A core's first step: the masked product of the step's rows added to the zero block. -/
theorem acc0_first (c : Dev nD) (t : Fin cfg0.N) (h0 : t.val % 8 = 0) :
    acc0 m c t.val t.isLt = k0_pay10 (blkA m c t) (blkM m c t) (k0_pay5 (F := Ideal)) := by
  have h1 : ¬t.val % 8 = 7 := by omega
  show (outsAt0 (F := Ideal) m c t.val t.isLt).2.2.2.1 = _
  rw [outsAt0_A m c t h0 h1]
  dsimp only
  exact sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem acc1_first (c : Dev nD) (t : Fin cfg0.N) (h0 : t.val % 8 = 0) :
    acc1 m c t.val t.isLt = k0_pay1 (k0_pay11 (blkA m c t) (k0_pay6 (F := Ideal))) := by
  have h1 : ¬t.val % 8 = 7 := by omega
  show (outsAt0 (F := Ideal) m c t.val t.isLt).2.2.2.2.1 = _
  rw [outsAt0_A m c t h0 h1]
  dsimp only
  exact sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem acc2_first (c : Dev nD) (t : Fin cfg0.N) (h0 : t.val % 8 = 0) :
    acc2 m c t.val t.isLt = k0_pay8 (blkA m c t) (blkB m c t) (k0_pay7 (F := Ideal)) := by
  have h1 : ¬t.val % 8 = 7 := by omega
  show (outsAt0 (F := Ideal) m c t.val t.isLt).2.2.2.2.2 = _
  rw [outsAt0_A m c t h0 h1]
  dsimp only
  exact sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- A later step: the step's rows added to what the step before left (the same at a middle step and at the last). -/
theorem acc0_step (c : Dev nD) (t : Fin cfg0.N) (h0 : ¬t.val % 8 = 0) :
    acc0 m c t.val t.isLt
      = k0_pay10 (blkA m c t) (blkM m c t) (acc0 m c (t.val - 1) (Nat.lt_of_le_of_lt (Nat.sub_le _ _) t.isLt)) := by
  show (outsAt0 (F := Ideal) m c t.val t.isLt).2.2.2.1 = _
  by_cases h1 : t.val % 8 = 7
  · rw [outsAt0_C m c t h0 h1]
    dsimp only
    exact sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem acc1_step (c : Dev nD) (t : Fin cfg0.N) (h0 : ¬t.val % 8 = 0) :
    acc1 m c t.val t.isLt
      = k0_pay1 (k0_pay11 (blkA m c t) (acc1 m c (t.val - 1) (Nat.lt_of_le_of_lt (Nat.sub_le _ _) t.isLt))) := by
  show (outsAt0 (F := Ideal) m c t.val t.isLt).2.2.2.2.1 = _
  by_cases h1 : t.val % 8 = 7
  · rw [outsAt0_C m c t h0 h1]
    dsimp only
    exact sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem acc2_step (c : Dev nD) (t : Fin cfg0.N) (h0 : ¬t.val % 8 = 0) :
    acc2 m c t.val t.isLt
      = k0_pay8 (blkA m c t) (blkB m c t) (acc2 m c (t.val - 1) (Nat.lt_of_le_of_lt (Nat.sub_le _ _) t.isLt)) := by
  show (outsAt0 (F := Ideal) m c t.val t.isLt).2.2.2.2.2 = _
  by_cases h1 : t.val % 8 = 7
  · rw [outsAt0_C m c t h0 h1]
    dsimp only
    exact sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## The accumulators as sums over rows -/

/-- Row `r`'s term in entry `(i, j)` of the masked product and of the plain product, and its squared distance. -/
abbrev rowW (c : Dev nD) (i j : Fin 512) (r : Fin 32768) : Ideal .f32 :=
  (arrA m c (ix2 r i) * arrM m c (ix2 r (0 : Fin 1))) * arrA m c (ix2 r j)
abbrev rowP (c : Dev nD) (i j : Fin 512) (r : Fin 32768) : Ideal .f32 := arrA m c (ix2 r i) * arrA m c (ix2 r j)
abbrev rowD (c : Dev nD) (r : Fin 32768) : Ideal .f32 :=
  ∑ l : Fin 512, (arrA m c (ix2 r l) - arrB m c (ix2 r l)) * (arrA m c (ix2 r l) - arrB m c (ix2 r l))

/-- After step `n` the first accumulator holds the masked product summed over the rows of `n`'s core up to the end of step `n`. -/
theorem acc0_apply (c : Dev nD) (i j : Fin 512) (n : ℕ) (hn : n < cfg0.N) :
    acc0 m c n hn (ix2 i j)
      = ∑ r : Fin 32768, if 16384 * (n / 8) ≤ r.val ∧ r.val < 2048 * (n + 1) then rowW m c i j r else 0 := by
  have hN : cfg0.N = 16 := N_0
  refine running_sum hN (rowW m c i j) (fun n hn => acc0 m c n hn (ix2 i j)) (fun n hn h0 => ?_) (fun n hn h0 => ?_) n hn
  · refine (congrFun (acc0_first m c ⟨n, hn⟩ h0) (ix2 i j)).trans
      ((pay10_apply (blkA m c ⟨n, hn⟩) (blkM m c ⟨n, hn⟩) (k0_pay5 (F := Ideal)) i j).trans ?_)
    refine congrArg₂ (· + ·) (pay5_apply (ix2 i j)) (Finset.sum_congr rfl fun q _ => ?_)
    exact congrArg₂ (· * ·) (congrArg₂ (· * ·) (blkA_apply m c ⟨n, hn⟩ q i ⟨2048 * n + q.val, by omega⟩ rfl)
      (blkM_apply m c ⟨n, hn⟩ q (0 : Fin 1) ⟨2048 * n + q.val, by omega⟩ rfl)) (blkA_apply m c ⟨n, hn⟩ q j ⟨2048 * n + q.val, by omega⟩ rfl)
  · refine (congrFun (acc0_step m c ⟨n, hn⟩ h0) (ix2 i j)).trans
      ((pay10_apply (blkA m c ⟨n, hn⟩) (blkM m c ⟨n, hn⟩) (acc0 m c (n - 1) (by omega)) i j).trans ?_)
    refine congrArg₂ (· + ·) rfl (Finset.sum_congr rfl fun q _ => ?_)
    exact congrArg₂ (· * ·) (congrArg₂ (· * ·) (blkA_apply m c ⟨n, hn⟩ q i ⟨2048 * n + q.val, by omega⟩ rfl)
      (blkM_apply m c ⟨n, hn⟩ q (0 : Fin 1) ⟨2048 * n + q.val, by omega⟩ rfl)) (blkA_apply m c ⟨n, hn⟩ q j ⟨2048 * n + q.val, by omega⟩ rfl)

/-- Likewise the second accumulator, with the plain product. -/
theorem acc1_apply (c : Dev nD) (i j : Fin 512) (n : ℕ) (hn : n < cfg0.N) :
    acc1 m c n hn (ix2 i j)
      = ∑ r : Fin 32768, if 16384 * (n / 8) ≤ r.val ∧ r.val < 2048 * (n + 1) then rowP m c i j r else 0 := by
  have hN : cfg0.N = 16 := N_0
  refine running_sum hN (rowP m c i j) (fun n hn => acc1 m c n hn (ix2 i j)) (fun n hn h0 => ?_) (fun n hn h0 => ?_) n hn
  · refine (congrFun (acc1_first m c ⟨n, hn⟩ h0) (ix2 i j)).trans
      ((pay11_apply (blkA m c ⟨n, hn⟩) (k0_pay6 (F := Ideal)) i j).trans ?_)
    refine congrArg₂ (· + ·) (pay6_apply (ix2 i j)) (Finset.sum_congr rfl fun q _ => ?_)
    exact congrArg₂ (· * ·) (blkA_apply m c ⟨n, hn⟩ q i ⟨2048 * n + q.val, by omega⟩ rfl) (blkA_apply m c ⟨n, hn⟩ q j ⟨2048 * n + q.val, by omega⟩ rfl)
  · refine (congrFun (acc1_step m c ⟨n, hn⟩ h0) (ix2 i j)).trans
      ((pay11_apply (blkA m c ⟨n, hn⟩) (acc1 m c (n - 1) (by omega)) i j).trans ?_)
    refine congrArg₂ (· + ·) rfl (Finset.sum_congr rfl fun q _ => ?_)
    exact congrArg₂ (· * ·) (blkA_apply m c ⟨n, hn⟩ q i ⟨2048 * n + q.val, by omega⟩ rfl) (blkA_apply m c ⟨n, hn⟩ q j ⟨2048 * n + q.val, by omega⟩ rfl)

/-- Likewise the scalar accumulator, with the rows' squared distances. -/
theorem acc2_apply (c : Dev nD) (n : ℕ) (hn : n < cfg0.N) :
    acc2 m c n hn (ix2 (0 : Fin 1) (0 : Fin 1))
      = ∑ r : Fin 32768, if 16384 * (n / 8) ≤ r.val ∧ r.val < 2048 * (n + 1) then rowD m c r else 0 := by
  have hN : cfg0.N = 16 := N_0
  refine running_sum hN (rowD m c) (fun n hn => acc2 m c n hn (ix2 (0 : Fin 1) (0 : Fin 1))) (fun n hn h0 => ?_) (fun n hn h0 => ?_) n hn
  · refine (congrFun (acc2_first m c ⟨n, hn⟩ h0) (ix2 (0 : Fin 1) (0 : Fin 1))).trans
      ((pay8_apply (blkA m c ⟨n, hn⟩) (blkB m c ⟨n, hn⟩) (k0_pay7 (F := Ideal))).trans ?_)
    refine congrArg₂ (· + ·) (pay7_apply (ix2 (0 : Fin 1) (0 : Fin 1))) (Finset.sum_congr rfl fun q _ => Finset.sum_congr rfl fun l _ => ?_)
    exact congrArg₂ (· * ·)
      (congrArg₂ (· - ·) (blkA_apply m c ⟨n, hn⟩ q l ⟨2048 * n + q.val, by omega⟩ rfl) (blkB_apply m c ⟨n, hn⟩ q l ⟨2048 * n + q.val, by omega⟩ rfl))
      (congrArg₂ (· - ·) (blkA_apply m c ⟨n, hn⟩ q l ⟨2048 * n + q.val, by omega⟩ rfl) (blkB_apply m c ⟨n, hn⟩ q l ⟨2048 * n + q.val, by omega⟩ rfl))
  · refine (congrFun (acc2_step m c ⟨n, hn⟩ h0) (ix2 (0 : Fin 1) (0 : Fin 1))).trans
      ((pay8_apply (blkA m c ⟨n, hn⟩) (blkB m c ⟨n, hn⟩) (acc2 m c (n - 1) (by omega))).trans ?_)
    refine congrArg₂ (· + ·) rfl (Finset.sum_congr rfl fun q _ => Finset.sum_congr rfl fun l _ => ?_)
    exact congrArg₂ (· * ·)
      (congrArg₂ (· - ·) (blkA_apply m c ⟨n, hn⟩ q l ⟨2048 * n + q.val, by omega⟩ rfl) (blkB_apply m c ⟨n, hn⟩ q l ⟨2048 * n + q.val, by omega⟩ rfl))
      (congrArg₂ (· - ·) (blkA_apply m c ⟨n, hn⟩ q l ⟨2048 * n + q.val, by omega⟩ rfl) (blkB_apply m c ⟨n, hn⟩ q l ⟨2048 * n + q.val, by omega⟩ rfl))

/-! ## What a core's last step writes back -/

/-- At its last step a core copies each accumulator, as that step leaves it, into its block of the result. -/
theorem o3_last (c : Dev nD) (t : Fin cfg0.N) (h1 : t.val % 8 = 7) :
    (outsAt0 (F := Ideal) m c t.val t.isLt).1 = k0_pay2 (acc0 m c t.val t.isLt) := by
  have h0 : ¬t.val % 8 = 0 := by omega
  refine Eq.trans ?_ (congrArg (k0_pay2 (F := Ideal)) (acc0_step m c t h0).symm)
  rw [outsAt0_C m c t h0 h1]
  dsimp only
  exact oC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem o4_last (c : Dev nD) (t : Fin cfg0.N) (h1 : t.val % 8 = 7) :
    (outsAt0 (F := Ideal) m c t.val t.isLt).2.1 = k0_pay3 (acc1 m c t.val t.isLt) := by
  have h0 : ¬t.val % 8 = 0 := by omega
  refine Eq.trans ?_ (congrArg (k0_pay3 (F := Ideal)) (acc1_step m c t h0).symm)
  rw [outsAt0_C m c t h0 h1]
  dsimp only
  exact oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem o5_last (c : Dev nD) (t : Fin cfg0.N) (h1 : t.val % 8 = 7) :
    (outsAt0 (F := Ideal) m c t.val t.isLt).2.2.1 = k0_pay4 (acc2 m c t.val t.isLt) := by
  have h0 : ¬t.val % 8 = 0 := by omega
  refine Eq.trans ?_ (congrArg (k0_pay4 (F := Ideal)) (acc2_step m c t h0).symm)
  rw [outsAt0_C m c t h0 h1]
  dsimp only
  exact oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## From the written blocks to the result arrays -/

/-- What the three result arrays hold: entry `(cc, i, j)` is the sum over the rows of core `cc`. -/
def G3 (c : Dev nD) : Vec Ideal S2x512x512 .f32 := fun y =>
  ∑ r : Fin 32768, if r.val / 16384 = (y 0).val then rowW m c (y 1) (y 2) r else 0
def G4 (c : Dev nD) : Vec Ideal S2x512x512 .f32 := fun y =>
  ∑ r : Fin 32768, if r.val / 16384 = (y 0).val then rowP m c (y 1) (y 2) r else 0
def G5 (c : Dev nD) : Vec Ideal S2x1x1 .f32 := fun y =>
  ∑ r : Fin 32768, if r.val / 16384 = (y 0).val then rowD m c r else 0

theorem G3_apply (c : Dev nD) (cc : Fin 2) (i j : Fin 512) :
    G3 m c (ix3 cc i j) = ∑ r : Fin 32768, if r.val / 16384 = cc.val then rowW m c i j r else 0 := rfl
theorem G4_apply (c : Dev nD) (cc : Fin 2) (i j : Fin 512) :
    G4 m c (ix3 cc i j) = ∑ r : Fin 32768, if r.val / 16384 = cc.val then rowP m c i j r else 0 := rfl
theorem G5_apply (c : Dev nD) (cc : Fin 2) :
    G5 m c (ix3 cc (0 : Fin 1) (0 : Fin 1)) = ∑ r : Fin 32768, if r.val / 16384 = cc.val then rowD m c r else 0 := rfl

/- The sums are over 32768 rows: from here on the three functions are read only through the equations above. -/
attribute [irreducible] G3 G4 G5

/-- The block core `t / 8` writes at its last step `t` is block `t / 8` of `G3`: the rows up to the end of step `t` are then
    all the rows of the core. -/
theorem flushed3_eq (c : Dev nD) (t : Fin cfg0.N) (hf : (cfg0.win 3).flush t = true) :
    (dats (F := Ideal) m 0 c).flushed 3 t = ((cfg0.win 3).blk t).view.read (Elt Ideal) (G3 m c) := by
  have hN : cfg0.N = 16 := N_0
  have h1 : t.val % 8 = 7 := (flush0_3 t).mp hf
  have ht : t.val < 16 := hN ▸ t.isLt
  obtain ⟨-, -, -, -, -, -, e0, e1, e2, -⟩ := idx_grid t
  show (cfg0.win 3).cut (grid0.coords t) ((dats (F := Ideal) m 0 c).after 3 t) = _
  rw [after0_3, o3_last m c t h1]
  have key : ∀ y : S1x512x512.Idx,
      k0_pay2 (acc0 m c t.val t.isLt) y = G3 m c (((cfg0.win 3).blk t).view.emb y) := by
    intro y
    obtain ⟨p, i, j, rfl⟩ : ∃ (p : Fin 1) (i j : Fin 512), y = ix3 p i j := ⟨y 0, y 1, y 2, eq_ix3 y⟩
    obtain rfl : p = 0 := Subsingleton.elim _ _
    have he : ((cfg0.win 3).blk t).view.emb (ix3 (0 : Fin 1) i j) = ix3 (⟨t.val / 8, by omega⟩ : Fin 2) i j := by
      funext a
      apply Fin.ext
      match a with
      | ⟨0, _⟩ => show win0_3.index t (0 : Fin 3) * 1 + 1 * 0 = t.val / 8; rw [e0]; omega
      | ⟨1, _⟩ => show win0_3.index t (1 : Fin 3) * 512 + 1 * i.val = i.val; rw [e1]; omega
      | ⟨2, _⟩ => show win0_3.index t (2 : Fin 3) * 512 + 1 * j.val = j.val; rw [e2]; omega
    rw [he, pay2_apply, acc0_apply, G3_apply]
    show _ = ∑ r : Fin 32768, if r.val / 16384 = t.val / 8 then rowW m c i j r else 0
    exact Finset.sum_congr rfl fun r _ => if_congr (by omega) rfl rfl
  funext y
  rw [View.read_apply]
  exact key y

theorem flushed4_eq (c : Dev nD) (t : Fin cfg0.N) (hf : (cfg0.win 4).flush t = true) :
    (dats (F := Ideal) m 0 c).flushed 4 t = ((cfg0.win 4).blk t).view.read (Elt Ideal) (G4 m c) := by
  have hN : cfg0.N = 16 := N_0
  have h1 : t.val % 8 = 7 := (flush0_4 t).mp hf
  have ht : t.val < 16 := hN ▸ t.isLt
  obtain ⟨-, -, -, -, -, -, -, -, -, e0, e1, e2, -⟩ := idx_grid t
  show (cfg0.win 4).cut (grid0.coords t) ((dats (F := Ideal) m 0 c).after 4 t) = _
  rw [after0_4, o4_last m c t h1]
  have key : ∀ y : S1x512x512.Idx,
      k0_pay3 (acc1 m c t.val t.isLt) y = G4 m c (((cfg0.win 4).blk t).view.emb y) := by
    intro y
    obtain ⟨p, i, j, rfl⟩ : ∃ (p : Fin 1) (i j : Fin 512), y = ix3 p i j := ⟨y 0, y 1, y 2, eq_ix3 y⟩
    obtain rfl : p = 0 := Subsingleton.elim _ _
    have he : ((cfg0.win 4).blk t).view.emb (ix3 (0 : Fin 1) i j) = ix3 (⟨t.val / 8, by omega⟩ : Fin 2) i j := by
      funext a
      apply Fin.ext
      match a with
      | ⟨0, _⟩ => show win0_4.index t (0 : Fin 3) * 1 + 1 * 0 = t.val / 8; rw [e0]; omega
      | ⟨1, _⟩ => show win0_4.index t (1 : Fin 3) * 512 + 1 * i.val = i.val; rw [e1]; omega
      | ⟨2, _⟩ => show win0_4.index t (2 : Fin 3) * 512 + 1 * j.val = j.val; rw [e2]; omega
    rw [he, pay3_apply, acc1_apply, G4_apply]
    show _ = ∑ r : Fin 32768, if r.val / 16384 = t.val / 8 then rowP m c i j r else 0
    exact Finset.sum_congr rfl fun r _ => if_congr (by omega) rfl rfl
  funext y
  rw [View.read_apply]
  exact key y

theorem flushed5_eq (c : Dev nD) (t : Fin cfg0.N) (hf : (cfg0.win 5).flush t = true) :
    (dats (F := Ideal) m 0 c).flushed 5 t = ((cfg0.win 5).blk t).view.read (Elt Ideal) (G5 m c) := by
  have hN : cfg0.N = 16 := N_0
  have h1 : t.val % 8 = 7 := (flush0_5 t).mp hf
  have ht : t.val < 16 := hN ▸ t.isLt
  obtain ⟨-, -, -, -, -, -, -, -, -, -, -, -, e0, e1, e2⟩ := idx_grid t
  show (cfg0.win 5).cut (grid0.coords t) ((dats (F := Ideal) m 0 c).after 5 t) = _
  rw [after0_5, o5_last m c t h1]
  have key : ∀ y : S1x1x1.Idx,
      k0_pay4 (acc2 m c t.val t.isLt) y = G5 m c (((cfg0.win 5).blk t).view.emb y) := by
    intro y
    obtain ⟨p, i, j, rfl⟩ : ∃ (p : Fin 1) (i j : Fin 1), y = ix3 p i j := ⟨y 0, y 1, y 2, eq_ix3 y⟩
    obtain rfl : p = 0 := Subsingleton.elim _ _
    obtain rfl : i = 0 := Subsingleton.elim _ _
    obtain rfl : j = 0 := Subsingleton.elim _ _
    have he : ((cfg0.win 5).blk t).view.emb (ix3 (0 : Fin 1) (0 : Fin 1) (0 : Fin 1))
        = ix3 (⟨t.val / 8, by omega⟩ : Fin 2) (0 : Fin 1) (0 : Fin 1) := by
      funext a
      apply Fin.ext
      match a with
      | ⟨0, _⟩ => show win0_5.index t (0 : Fin 3) * 1 + 1 * 0 = t.val / 8; rw [e0]; omega
      | ⟨1, _⟩ => show win0_5.index t (1 : Fin 3) * 1 + 1 * 0 = 0; rw [e1]
      | ⟨2, _⟩ => show win0_5.index t (2 : Fin 3) * 1 + 1 * 0 = 0; rw [e2]
    rw [he, pay4_apply, acc2_apply, G5_apply]
    show _ = ∑ r : Fin 32768, if r.val / 16384 = t.val / 8 then rowD m c r else 0
    exact Finset.sum_congr rfl fun r _ => if_congr (by omega) rfl rfl
  funext y
  rw [View.read_apply]
  exact key y

/-- An entry of a result array lies in the block written at step `t` iff each coordinate lies in the block's range. -/
theorem mem_blk3 (t : Fin cfg0.N) (i : S2x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v11_0).slice (win0_3.rect t)).set ↔ _
  rw [View.set_slice_whole, Rect.mem_set_unit]
  exact Iff.rfl

theorem mem_blk4 (t : Fin cfg0.N) (i : S2x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v11_1).slice (win0_4.rect t)).set ↔ _
  rw [View.set_slice_whole, Rect.mem_set_unit]
  exact Iff.rfl

theorem mem_blk5 (t : Fin cfg0.N) (i : S2x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v11_2).slice (win0_5.rect t)).set ↔ _
  rw [View.set_slice_whole, Rect.mem_set_unit]
  exact Iff.rfl

/-- Every entry `(cc, i, j)` of a result array is written: by core `cc` at its last step, `t = 8 cc + 7`. -/
theorem cover3 (i : S2x512x512.Idx) :
    ∃ t : Fin cfg0.N, (cfg0.win 3).flush t = true ∧ i ∈ ((cfg0.win 3).blk t).view.set := by
  have hN : cfg0.N = 16 := N_0
  have h0 : (i 0).val < 2 := (i 0).isLt
  have h1 : (i 1).val < 512 := (i 1).isLt
  have h2 : (i 2).val < 512 := (i 2).isLt
  have hlt : 8 * (i 0).val + 7 < cfg0.N := by omega
  obtain ⟨-, -, -, -, -, -, e0, e1, e2, -⟩ := idx_grid ⟨8 * (i 0).val + 7, hlt⟩
  refine ⟨⟨8 * (i 0).val + 7, hlt⟩, (flush0_3 _).mpr (by dsimp only; omega), ?_⟩
  rw [mem_blk3]
  intro a
  match a with
  | ⟨0, _⟩ =>
    show win0_3.index ⟨8 * (i 0).val + 7, hlt⟩ (0 : Fin 3) * 1 ≤ (i 0).val
      ∧ (i 0).val < win0_3.index ⟨8 * (i 0).val + 7, hlt⟩ (0 : Fin 3) * 1 + 1
    rw [e0]; dsimp only; omega
  | ⟨1, _⟩ =>
    show win0_3.index ⟨8 * (i 0).val + 7, hlt⟩ (1 : Fin 3) * 512 ≤ (i 1).val
      ∧ (i 1).val < win0_3.index ⟨8 * (i 0).val + 7, hlt⟩ (1 : Fin 3) * 512 + 512
    rw [e1]; omega
  | ⟨2, _⟩ =>
    show win0_3.index ⟨8 * (i 0).val + 7, hlt⟩ (2 : Fin 3) * 512 ≤ (i 2).val
      ∧ (i 2).val < win0_3.index ⟨8 * (i 0).val + 7, hlt⟩ (2 : Fin 3) * 512 + 512
    rw [e2]; omega

theorem cover4 (i : S2x512x512.Idx) :
    ∃ t : Fin cfg0.N, (cfg0.win 4).flush t = true ∧ i ∈ ((cfg0.win 4).blk t).view.set := by
  have hN : cfg0.N = 16 := N_0
  have h0 : (i 0).val < 2 := (i 0).isLt
  have h1 : (i 1).val < 512 := (i 1).isLt
  have h2 : (i 2).val < 512 := (i 2).isLt
  have hlt : 8 * (i 0).val + 7 < cfg0.N := by omega
  obtain ⟨-, -, -, -, -, -, -, -, -, e0, e1, e2, -⟩ := idx_grid ⟨8 * (i 0).val + 7, hlt⟩
  refine ⟨⟨8 * (i 0).val + 7, hlt⟩, (flush0_4 _).mpr (by dsimp only; omega), ?_⟩
  rw [mem_blk4]
  intro a
  match a with
  | ⟨0, _⟩ =>
    show win0_4.index ⟨8 * (i 0).val + 7, hlt⟩ (0 : Fin 3) * 1 ≤ (i 0).val
      ∧ (i 0).val < win0_4.index ⟨8 * (i 0).val + 7, hlt⟩ (0 : Fin 3) * 1 + 1
    rw [e0]; dsimp only; omega
  | ⟨1, _⟩ =>
    show win0_4.index ⟨8 * (i 0).val + 7, hlt⟩ (1 : Fin 3) * 512 ≤ (i 1).val
      ∧ (i 1).val < win0_4.index ⟨8 * (i 0).val + 7, hlt⟩ (1 : Fin 3) * 512 + 512
    rw [e1]; omega
  | ⟨2, _⟩ =>
    show win0_4.index ⟨8 * (i 0).val + 7, hlt⟩ (2 : Fin 3) * 512 ≤ (i 2).val
      ∧ (i 2).val < win0_4.index ⟨8 * (i 0).val + 7, hlt⟩ (2 : Fin 3) * 512 + 512
    rw [e2]; omega

theorem cover5 (i : S2x1x1.Idx) :
    ∃ t : Fin cfg0.N, (cfg0.win 5).flush t = true ∧ i ∈ ((cfg0.win 5).blk t).view.set := by
  have hN : cfg0.N = 16 := N_0
  have h0 : (i 0).val < 2 := (i 0).isLt
  have h1 : (i 1).val < 1 := (i 1).isLt
  have h2 : (i 2).val < 1 := (i 2).isLt
  have hlt : 8 * (i 0).val + 7 < cfg0.N := by omega
  obtain ⟨-, -, -, -, -, -, -, -, -, -, -, -, e0, e1, e2⟩ := idx_grid ⟨8 * (i 0).val + 7, hlt⟩
  refine ⟨⟨8 * (i 0).val + 7, hlt⟩, (flush0_5 _).mpr (by dsimp only; omega), ?_⟩
  rw [mem_blk5]
  intro a
  match a with
  | ⟨0, _⟩ =>
    show win0_5.index ⟨8 * (i 0).val + 7, hlt⟩ (0 : Fin 3) * 1 ≤ (i 0).val
      ∧ (i 0).val < win0_5.index ⟨8 * (i 0).val + 7, hlt⟩ (0 : Fin 3) * 1 + 1
    rw [e0]; dsimp only; omega
  | ⟨1, _⟩ =>
    show win0_5.index ⟨8 * (i 0).val + 7, hlt⟩ (1 : Fin 3) * 1 ≤ (i 1).val
      ∧ (i 1).val < win0_5.index ⟨8 * (i 0).val + 7, hlt⟩ (1 : Fin 3) * 1 + 1
    rw [e1]; omega
  | ⟨2, _⟩ =>
    show win0_5.index ⟨8 * (i 0).val + 7, hlt⟩ (2 : Fin 3) * 1 ≤ (i 2).val
      ∧ (i 2).val < win0_5.index ⟨8 * (i 0).val + 7, hlt⟩ (2 : Fin 3) * 1 + 1
    rw [e2]; omega

/-- So each result array ends holding its sums over the cores' rows. -/
theorem out3_eq (c : Dev nD) : out3 m c = G3 m c :=
  (dats (F := Ideal) m 0 c).arrAt_eq_of_cover 3 (G3 m c) (fun t hf => flushed3_eq m c t hf) cover3

theorem out4_eq (c : Dev nD) : out4 m c = G4 m c :=
  (dats (F := Ideal) m 0 c).arrAt_eq_of_cover 4 (G4 m c) (fun t hf => flushed4_eq m c t hf) cover4

theorem out5_eq (c : Dev nD) : out5 m c = G5 m c :=
  (dats (F := Ideal) m 0 c).arrAt_eq_of_cover 5 (G5 m c) (fun t hf => flushed5_eq m c t hf) cover5

end Chain

theorem final3 (c : Dev nD) (cc : Fin 2) (i j : Fin 512) :
    out3 m c (ix3 cc i j) = ∑ r : Fin 32768, if r.val / 16384 = cc.val then
      (arrA m c (ix2 r i) * arrM m c (ix2 r (0 : Fin 1))) * arrA m c (ix2 r j) else 0 :=
  (congrFun (Chain.out3_eq m c) (ix3 cc i j)).trans (Chain.G3_apply m c cc i j)

theorem final4 (c : Dev nD) (cc : Fin 2) (i j : Fin 512) :
    out4 m c (ix3 cc i j) = ∑ r : Fin 32768, if r.val / 16384 = cc.val then
      arrA m c (ix2 r i) * arrA m c (ix2 r j) else 0 :=
  (congrFun (Chain.out4_eq m c) (ix3 cc i j)).trans (Chain.G4_apply m c cc i j)

theorem final5 (c : Dev nD) (cc : Fin 2) :
    out5 m c (ix3 cc (0 : Fin 1) (0 : Fin 1)) = ∑ r : Fin 32768, if r.val / 16384 = cc.val then
      ∑ l : Fin 512, (arrA m c (ix2 r l) - arrB m c (ix2 r l)) * (arrA m c (ix2 r l) - arrB m c (ix2 r l)) else 0 :=
  (congrFun (Chain.out5_eq m c) (ix3 cc (0 : Fin 1) (0 : Fin 1))).trans (Chain.G5_apply m c cc)

end Cert.KernelIdeal.Val

end
-- ==== Proof.LibVecScatter.lean ====
/-
  A scatter-add of scalars into a vector, read at an index, over the extended reals.

  What a count of occurrences, or a segment sum of a VECTOR of updates `upd : [E]` at a column of indices
  `idx : [E, 1]` into an operand `x : [N]`, lowers to: a `stablehlo.scatter` with an add body that has no update
  window at all (update_window_dims `[]`), whose one operand axis is inserted (inserted_window_dims `[0]`) and is
  the axis the index vector addresses (scatter_dims_to_operand_dims `[0]`, index_vector_dim `1`): the scalar
  `upd[e]` is added to the entry `idx[e, 0]` of the operand. Over the extended reals entry `v` of the result is the
  operand's entry plus the sum of `upd[e]` over the positions `e` whose index word `idx[e, 0]`, read as a signed
  integer and NOT clamped, is `v`; a position whose signed index is no entry of the operand adds nothing anywhere.
-/
import Idealize.ShloMosaic.PureOps.Ideal
import Idealize.ShloMosaic.Lib.ValueIdx

noncomputable section

open scoped BigOperators

namespace Cert.LibVecScatter

open Idealize.ShloMosaic Idealize.ShloMosaic.ValueIdx

/-! ## A rank-1 index set is its coordinate -/

/-- The indices of a vector of length `n` are the numbers below `n`. -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where a scalar update lands

The operand has one axis. It is inserted, so an update has no window coordinate on it; it is the axis the index
vector addresses, so the window of update `e` starts at the signed word `idx[e, 0]`. The landing coordinate,
start plus window coordinate, is therefore that signed word itself. -/

section Landing

variable {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

/-- The landing coordinate of update `e` on the operand's axis is its signed index word. -/
theorem landing_coord (idx : IVec (⟨2, ![E, 1]⟩ : Shape) w) (e : Fin E) :
    s.start (ix1 e) idx 0 + (s.window (ix1 e) 0 : ℤ) = (idx (ix2 e (0 : Fin 1))).toInt := by
  obtain ⟨uw, iw, sd, iv, wf⟩ := s
  subst huw hiw hsd hiv
  have hwin : (ScatterDims.mk [] [0] [0] 1 wf).window (ix1 e) 0 = 0 := rfl
  have hst : (ScatterDims.mk [] [0] [0] 1 wf).start (ix1 e) idx 0 = (idx (ix2 e (0 : Fin 1))).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  rw [hwin, hst]
  simp

/-- WHERE A SCALAR UPDATE LANDS: update `e` lands on entry `v` exactly when its signed index word is `v`. If the
    landing index exists its coordinate, the `toNat` of a nonnegative integer, is `v`; conversely the signed word
    `v` is in range because `v < N`. -/
theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  have hc := landing_coord s huw hiw hsd hiv idx e
  unfold ScatterDims.resultIdx?
  constructor
  · intro h
    split at h
    · rename_i hr
      have e0 := congrArg Fin.val (congrFun (Option.some.inj h) 0)
      have r0 := (hr 0).1
      rw [hc] at r0
      simp only [hc] at e0
      change _ = v.val at e0
      omega
    · exact absurd h (by simp)
  · intro hv
    have hr : ∀ a, 0 ≤ s.start (ix1 e) idx a + s.window (ix1 e) a ∧
        s.start (ix1 e) idx a + s.window (ix1 e) a < (⟨1, ![N]⟩ : Shape).size a := by
      intro a
      match a with
      | ⟨0, _⟩ =>
        show 0 ≤ s.start (ix1 e) idx 0 + s.window (ix1 e) 0 ∧ s.start (ix1 e) idx 0 + s.window (ix1 e) 0 < (N : ℤ)
        rw [hc, hv]; have := v.isLt; omega
    rw [dif_pos hr]
    refine congrArg some (funext fun a => Fin.ext ?_)
    match a with
    | ⟨0, _⟩ =>
      show (s.start (ix1 e) idx 0 + s.window (ix1 e) 0).toNat = v.val
      rw [hc, hv]; omega

end Landing

/-! ## The scatter-add read at an entry -/

/-- THE SCATTER-ADD OF SCALARS READ AT `v`: for any dimension-number record of this form, the operand's entry plus
    the sum over the positions `e` whose signed index word is `v` of the scalar `upd[e]`. The sum over the updates
    that land on `v` is a sum of guarded terms over all positions, and the guard is the landing condition. -/
theorem vecScatterAdd_apply {φ : FTy} {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  refine congrArg (x (ix1 v) + ·) ?_
  rw [Finset.sum_filter, sum_idx1]
  exact Finset.sum_congr rfl fun e _ => if_congr (resultIdx?_eq_some_iff s huw hiw hsd hiv idx e v) rfl rfl

end Cert.LibVecScatter

end
-- ==== Proof.LibScatterConst.lean ====
/-
  A scatter that overwrites, when every update carries the same value.

  `x.at[idx].set(v)` with a constant `v` lowers to a `stablehlo.scatter` whose body returns the update. Its meaning is
  a left fold over the update positions: each position whose landing index lies inside the operand replaces that entry.
  When every update is the same value the order of the fold does not matter, and the result has a closed form at every
  entry, for any dimension numbers and any shapes: the constant at an entry some update lands on, the operand's entry
  everywhere else. Indices may repeat and may fall outside the operand.
-/
import Idealize.ShloMosaic.PureOps

noncomputable section

namespace Cert.LibScatterConst

open Idealize.ShloMosaic

variable {α : Type} {s si u : Shape} {w : Nat}

/-- The fold of a scatter whose body returns the update, over any list of update positions still to come, read at an
    entry `v`, when every update is the same value `cst`: `cst` if one of the positions lands on `v`, and what the fold
    started from otherwise. Every update writes the same value, so the order in which the fold meets them does not
    matter. -/
theorem scatter_fold_const (d : ScatterDims s si u) (idx : IVec si w) (upd : u.Idx → α) (cst : α)
    (hu : ∀ j, upd j = cst) (v : s.Idx) (L : List (Fin u.numel)) (r0 : s.Idx → α) :
    ((∃ n ∈ L, d.resultIdx? (u.rowMajor.symm n) idx = some v) →
      (L.foldl (fun r n =>
        match d.resultIdx? (u.rowMajor.symm n) idx with
        | some i => fun i' => if i' = i then (fun _ b => b) (r i) (upd (u.rowMajor.symm n)) else r i'
        | none => r) r0) v = cst) ∧
    ((¬∃ n ∈ L, d.resultIdx? (u.rowMajor.symm n) idx = some v) →
      (L.foldl (fun r n =>
        match d.resultIdx? (u.rowMajor.symm n) idx with
        | some i => fun i' => if i' = i then (fun _ b => b) (r i) (upd (u.rowMajor.symm n)) else r i'
        | none => r) r0) v = r0 v) := by
  induction L generalizing r0 with
  | nil => exact ⟨fun ⟨n, hn, _⟩ => absurd hn (List.not_mem_nil), fun _ => rfl⟩
  | cons a L ih =>
    rw [List.foldl_cons]
    by_cases h1 : ∃ n ∈ L, d.resultIdx? (u.rowMajor.symm n) idx = some v
    · refine ⟨fun _ => (ih _).1 h1, fun h => absurd ?_ h⟩
      obtain ⟨n, hn, e⟩ := h1
      exact ⟨n, List.mem_cons_of_mem _ hn, e⟩
    · cases hr : d.resultIdx? (u.rowMajor.symm a) idx with
      | none =>
        have hno : ¬∃ n ∈ a :: L, d.resultIdx? (u.rowMajor.symm n) idx = some v := by
          rintro ⟨n, hn, e⟩
          rcases List.mem_cons.mp hn with rfl | hn
          · rw [hr] at e; exact absurd e (by simp)
          · exact h1 ⟨n, hn, e⟩
        exact ⟨fun h => absurd h hno, fun _ => (ih _).2 h1⟩
      | some i =>
        by_cases hv : v = i
        · refine ⟨fun _ => ((ih _).2 h1).trans ?_, fun h => absurd ⟨a, List.mem_cons_self .., by rw [hr, hv]⟩ h⟩
          show (if v = i then upd (u.rowMajor.symm a) else r0 v) = cst
          rw [if_pos hv, hu]
        · have hno : ¬∃ n ∈ a :: L, d.resultIdx? (u.rowMajor.symm n) idx = some v := by
            rintro ⟨n, hn, e⟩
            rcases List.mem_cons.mp hn with rfl | hn
            · rw [hr] at e; exact hv (Option.some.inj e).symm
            · exact h1 ⟨n, hn, e⟩
          refine ⟨fun h => absurd h hno, fun _ => ((ih _).2 h1).trans ?_⟩
          show (if v = i then upd (u.rowMajor.symm a) else r0 v) = r0 v
          rw [if_neg hv]

/-- Some position of the whole update list lands on `v` exactly when some update index does. -/
theorem lands_finRange_iff (d : ScatterDims s si u) (idx : IVec si w) (v : s.Idx) :
    (∃ n ∈ List.finRange u.numel, d.resultIdx? (u.rowMajor.symm n) idx = some v) ↔ ∃ j : u.Idx, d.resultIdx? j idx = some v :=
  ⟨fun ⟨n, _, e⟩ => ⟨_, e⟩, fun ⟨j, e⟩ => ⟨u.rowMajor j, List.mem_finRange _, by rw [Equiv.symm_apply_apply]; exact e⟩⟩

/-- A scatter that overwrites with one constant, at an entry some update lands on: the constant. -/
theorem scatter_const_of_lands (d : ScatterDims s si u) (x : s.Idx → α) (idx : IVec si w) (upd : u.Idx → α) (cst : α)
    (hu : ∀ j, upd j = cst) (v : s.Idx) (h : ∃ j : u.Idx, d.resultIdx? j idx = some v) :
    Host.scatter d (fun _ b => b) x idx upd v = cst :=
  (scatter_fold_const d idx upd cst hu v (List.finRange u.numel) x).1 ((lands_finRange_iff d idx v).mpr h)

/-- … and at an entry no update lands on: the operand's entry. -/
theorem scatter_const_of_not_lands (d : ScatterDims s si u) (x : s.Idx → α) (idx : IVec si w) (upd : u.Idx → α) (cst : α)
    (hu : ∀ j, upd j = cst) (v : s.Idx) (h : ¬∃ j : u.Idx, d.resultIdx? j idx = some v) :
    Host.scatter d (fun _ b => b) x idx upd v = x v :=
  (scatter_fold_const d idx upd cst hu v (List.finRange u.numel) x).2 (fun h' => h ((lands_finRange_iff d idx v).mp h'))

end Cert.LibScatterConst

end
-- ==== Proof.KHost.lean ====
/-
  The host operations around the kernel region.

  Before it: the row mask. A vector of 32768 zeros takes the value one at every row the first 16384 entries of the index
  vector name (a scatter that overwrites, so a row named once or more holds one); reshaped to a column it is what the
  region reads as its third operand. When the index vector is a permutation `σ`, entry `r` is the 0/1 indicator of
  "some position of the first half holds `r`".
  After it: the two per-core blocks of each result are added, and the shared closing chain is applied to the sums.
-/
import proofs.«418193_j31361851195491_2_alg».proof.Proof.Gen.KernelIdeal.Frame
import proofs.«418193_j31361851195491_2_alg».proof.Proof.Spec
import proofs.«418193_j31361851195491_2_alg».proof.Proof.KChain
import proofs.«418193_j31361851195491_2_alg».proof.Proof.LibVecScatter
import proofs.«418193_j31361851195491_2_alg».proof.Proof.LibScatterConst
import Idealize.ShloMosaic.Lib.Pipeline.Value
import Idealize.ShloMosaic.Lib.StableHlo.Run
import Idealize.ShloMosaic.Lib.StableHlo.Predicate
import Idealize.ShloMosaic.PureOps.Ideal.Laws
import Idealize.ShloMosaic.Lib.IdealHost

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open Cert.LibScatterConst

variable (m : (ℓ : Loc nD τ sig) → Buf (Elt Ideal) ℓ)

/-- The two matrices reach the region unchanged. -/
theorem arrA_eq (c : Dev nD) : arrA m c = m ((c : Thread nD τ).loc main_arg0) := V_main_arg0 m c
theorem arrB_eq (c : Dev nD) : arrB m c = m ((c : Thread nD τ).loc main_arg1) := V_main_arg1 m c

/-! ## The row mask -/

/-- The first 16384 entries of a vector of 32768. -/
abbrev firstHalf (a : IVec S32768 32) : IVec S16384 32 := extractStridedSlice S16384 ![0] a Facts₀.slices_S32768_S16384_0

/-- The index words as the scatter reads them: the first half of the index vector, a negative word moved up by 32768,
    as a column. -/
def normIdx (a : IVec S32768 32) : IVec S16384x1 32 :=
  broadcastInDim S16384x1 ![0] Facts₀.bcast_S16384_S16384x1_0
    (select (cmpi .slt (firstHalf a) (broadcastInDim S16384 ![] Facts₀.bcast_S_S16384 (constantI S_ 32 0#32)))
      (addi (firstHalf a) (broadcastInDim S16384 ![] Facts₀.bcast_S_S16384 (constantI S_ 32 32768#32)))
      (firstHalf a))

/-- The row mask before its reshape, as a function of the index vector: zeros overwritten by ones. -/
def maskVec (a : IVec S32768 32) : FVec Ideal S32768 .f32 :=
  Host.scatter scatter_S32768_S16384x1_S16384_n_0_0_1 (fun _ b => b)
    (broadcastInDim S32768 ![] Facts₀.bcast_S_S32768 (constant (F := Ideal) S_ .f32 0x00000000#32))
    (normIdx a)
    (broadcastInDim S16384 ![] Facts₀.bcast_S_S16384 (constant (F := Ideal) S_ .f32 0x3F800000#32))

/-- What the region's third operand holds: the host operations before the region, one after the other. -/
theorem arrM_eq (c : Dev nD) :
    (arrM m c : S32768x1.Idx → EReal)
      = shapeCast S32768x1 (maskVec (m ((c : Thread nD τ).loc main_arg2))) Facts₀.shapeCasts_S32768_S32768x1 := by
  show StableHlo.after hostOps0 (fun b => m (c, b)) (Proc.devRef .tc main_v10) = _
  after_results
  rfl

/-- Position `e` of the first half of the index vector, a word of value below 32768: not negative, so the
    normalisation keeps it. -/
theorem normIdx_apply (a : IVec S32768 32) (e : Fin 16384) (k : ℕ) (hk : k < 32768)
    (ha : a (ix1 (Cert.Vic.lo e)) = BitVec.ofNat 32 k) : normIdx a (ix2 e (0 : Fin 1)) = BitVec.ofNat 32 k := by
  have e1 : ix2 e (0 : Fin 1) = StableHlo.Predicate.ixP e := funext fun d => match d with | ⟨0, _⟩ => rfl | ⟨1, _⟩ => rfl
  have e2 : firstHalf a (Shape.Idx.ofFin e) = BitVec.ofNat 32 k := by
    rw [← ha]
    exact extractStridedSlice_apply _ a _ _ _ fun b => match b with | ⟨0, _⟩ => (Nat.zero_add _).symm
  unfold normIdx
  rw [e1, StableHlo.Predicate.bcast_col1]
  show Scalar.select (IntOp.cmpi .slt (firstHalf a (Shape.Idx.ofFin e)) 0#32)
    (IntOp.addi (firstHalf a (Shape.Idx.ofFin e)) 32768#32) (firstHalf a (Shape.Idx.ofFin e)) = _
  rw [e2]
  have hlt : (BitVec.ofNat 32 k).toNat < 2 ^ 31 := by rw [BitVec.toNat_ofNat]; omega
  have hc : ¬IntOp.cmpi .slt (BitVec.ofNat 32 k) 0#32 = 1 := fun h =>
    absurd ((StableHlo.Predicate.slt_iff_toNat hlt (by decide)).mp h) (by simp)
  exact if_neg hc

/-- Some update lands on entry `r` exactly when some position's signed index word is `r`. -/
theorem lands_iff (idx : IVec S16384x1 32) (r : Fin 32768) :
    (∃ j : S16384.Idx, scatter_S32768_S16384x1_S16384_n_0_0_1.resultIdx? j idx = some (ix1 r))
      ↔ ∃ e : Fin 16384, (idx (ix2 e (0 : Fin 1))).toInt = (r.val : ℤ) := by
  constructor
  · rintro ⟨j, h⟩
    rw [eq_ix1 j] at h
    exact ⟨j 0, (Cert.LibVecScatter.resultIdx?_eq_some_iff _ rfl rfl rfl rfl idx (j 0) r).mp h⟩
  · rintro ⟨e, h⟩
    exact ⟨ix1 e, (Cert.LibVecScatter.resultIdx?_eq_some_iff _ rfl rfl rfl rfl idx e r).mpr h⟩

/-- The mask vector at row `r` when the index vector holds the permutation `σ`: one if the first half names `r`. -/
theorem maskVec_apply (a : IVec S32768 32) (σ : Equiv.Perm (Fin 32768))
    (hp : ∀ e : Fin 32768, a (ix1 e) = BitVec.ofNat 32 (σ e).val) (r : Fin 32768) :
    maskVec a (ix1 r) = Cert.Vic.ind σ r := by
  have hiff : (∃ j : S16384.Idx, scatter_S32768_S16384x1_S16384_n_0_0_1.resultIdx? j (normIdx a) = some (ix1 r))
      ↔ ∃ e : Fin 16384, σ (Cert.Vic.lo e) = r :=
    (lands_iff _ r).trans (exists_congr fun e => by
      rw [normIdx_apply a e _ (σ (Cert.Vic.lo e)).isLt (hp _),
        StableHlo.Predicate.toInt_ofNat_small _ (by have := (σ (Cert.Vic.lo e)).isLt; omega)]
      exact ⟨fun h => Fin.ext (by exact_mod_cast h), fun h => by rw [h]⟩)
  have hone : ∀ j : S16384.Idx,
      broadcastInDim S16384 ![] Facts₀.bcast_S_S16384 (constant (F := Ideal) S_ .f32 0x3F800000#32) j = (1 : EReal) :=
    fun j => Ideal.ofBits_one_f32
  unfold Cert.Vic.ind maskVec
  split
  · next h => exact scatter_const_of_lands _ _ _ _ 1 hone _ (hiff.mpr h)
  · next h =>
    exact (scatter_const_of_not_lands _ _ _ _ 1 hone _ (fun h' => h (hiff.mp h'))).trans Ideal.ofBits_zero_f32

/-- The row mask the region reads, when the index vector is the permutation `σ`. -/
theorem mask_apply (c : Dev nD) (σ : Equiv.Perm (Fin 32768))
    (hp : ∀ e : Fin 32768, (m ((c : Thread nD τ).loc main_arg2) : IVec S32768 32) (ix1 e) = BitVec.ofNat 32 (σ e).val)
    (r : Fin 32768) : arrM m c (ix2 r (0 : Fin 1)) = Cert.Vic.ind σ r := by
  rw [arrM_eq]
  refine (shapeCast_apply _ _ _ (ix1 r) ?_).trans (maskVec_apply _ σ hp r)
  rw [Shape.rowMajor_val_two, Shape.rowMajor_val_one]
  show r.val = r.val * 1 + 0
  omega

/-- The per-core blocks added: the host's three sums over the leading axis. -/
def sum3 (c : Dev nD) : FVec Ideal S512x512 .f32 :=
  Host.reduceAdd (out3 m c) (constant (F := Ideal) S_ .f32 0x00000000#32) Facts₀.reducesTo_S2x512x512_S512x512_d0 Facts₀.h_S_
def sum4 (c : Dev nD) : FVec Ideal S512x512 .f32 :=
  Host.reduceAdd (out4 m c) (constant (F := Ideal) S_ .f32 0x00000000#32) Facts₀.reducesTo_S2x512x512_S512x512_d0 Facts₀.h_S_
def sum5 (c : Dev nD) : FVec Ideal S_ .f32 :=
  Host.reduceAdd (out5 m c) (constant (F := Ideal) S_ .f32 0x00000000#32) Facts₀.reducesTo_S2x1x1_S_d0_1_2 Facts₀.h_S_

/-- The program's result is the shared closing chain of those three sums. -/
theorem tail_eq (c : Dev nD) :
    Pipeline.afterTail₀ cfgs (dats (F := Ideal) m) 0 (V0 m) [hostOps1] c main_v35
      = Cert.Vic.tail Facts₀.bcast_S_S512x512 Facts₀.reducesTo_S512x512_S_d0_1 Facts₀.h_S_
          dot_S512x512_S512x512_S512x512_1_0_0_1_n_n (some .fp32) (sum3 m c) (subf (sum4 m c) (sum3 m c)) (sum5 m c) := by
  unfold Pipeline.afterTail₀
  show StableHlo.after hostOps1 _ (Proc.devRef .tc main_v35) = _
  after_results_simp
  have e3 : Pipeline.withArrays (cfgs 0).spec c (V0 m c) (fun w => (dats (F := Ideal) m 0 c).arrAt w (cfgs 0).N)
      (Proc.devRef .tc main_v11_0) = out3 m c := Pipeline.withArrays_arr spec0 launch0.win.arr_inj c _ _ 3
  have e4 : Pipeline.withArrays (cfgs 0).spec c (V0 m c) (fun w => (dats (F := Ideal) m 0 c).arrAt w (cfgs 0).N)
      (Proc.devRef .tc main_v11_1) = out4 m c := Pipeline.withArrays_arr spec0 launch0.win.arr_inj c _ _ 4
  have e5 : Pipeline.withArrays (cfgs 0).spec c (V0 m c) (fun w => (dats (F := Ideal) m 0 c).arrAt w (cfgs 0).N)
      (Proc.devRef .tc main_v11_2) = out5 m c := Pipeline.withArrays_arr spec0 launch0.win.arr_inj c _ _ 5
  rw [e3, e4, e5]
  unfold sum3 sum4 sum5
  generalize out3 m c = X3
  generalize out4 m c = X4
  generalize out5 m c = X5
  rfl

/-! ## The per-core blocks added -/

/-- Each row belongs to exactly one of the two cores, so summing each core's rows and then the cores is summing all rows. -/
theorem sum_cores (f : Fin 32768 → EReal) :
    ∑ cc : Fin 2, ∑ r : Fin 32768, (if r.val / 16384 = cc.val then f r else 0) = ∑ r : Fin 32768, f r := by
  rw [Finset.sum_comm]
  refine Finset.sum_congr rfl fun r _ => ?_
  have hr : r.val / 16384 < 2 := by have := r.isLt; omega
  rw [Finset.sum_eq_single (⟨r.val / 16384, hr⟩ : Fin 2)]
  · exact if_pos rfl
  · intro b _ hb
    exact if_neg fun h => hb (Fin.ext h.symm)
  · intro h; exact absurd (Finset.mem_univ _) h

/-- The host's sum over the leading axis of a [2, 512, 512] array whose block `cc` is core `cc`'s sum of `g`. -/
theorem reduce_cores_apply (x : FVec Ideal S2x512x512 .f32) (g : Fin 32768 → EReal) (i j : Fin 512)
    (hx : ∀ cc : Fin 2, x (ix3 cc i j) = ∑ r : Fin 32768, if r.val / 16384 = cc.val then g r else 0) :
    Host.reduceAdd x (constant (F := Ideal) S_ .f32 0x00000000#32) Facts₀.reducesTo_S2x512x512_S512x512_d0 Facts₀.h_S_ (ix2 i j)
      = ∑ r : Fin 32768, g r := by
  show Ideal.hostReduceAdd Facts₀.reducesTo_S2x512x512_S512x512_d0 x (Ideal.ofBits .f32 0x00000000#32) (ix2 i j) = _
  rw [Ideal.hostReduceAdd_single _ (by decide : S2x512x512.Reduces [0] S512x512), Ideal.ofBits_zero_f32, zero_add,
    ← sum_cores]
  refine Finset.sum_congr rfl fun cc _ => ?_
  rw [← hx cc]
  exact congrArg x (funext fun a => match a with | ⟨0, _⟩ => rfl | ⟨1, _⟩ => rfl | ⟨2, _⟩ => rfl)

/-- A [2, 1, 1] array's indices are its leading coordinates. -/
def idxEquivCores : S2x1x1.Idx ≃ Fin 2 where
  toFun i := i 0
  invFun cc := ix3 cc (0 : Fin 1) (0 : Fin 1)
  left_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)
  right_inv _ := rfl

/-- The host's sum over every axis of a [2, 1, 1] array whose entry `cc` is core `cc`'s sum of `g`. -/
theorem reduce_cores_total (x : FVec Ideal S2x1x1 .f32) (g : Fin 32768 → EReal) (y : S_.Idx)
    (hx : ∀ cc : Fin 2, x (ix3 cc (0 : Fin 1) (0 : Fin 1)) = ∑ r : Fin 32768, if r.val / 16384 = cc.val then g r else 0) :
    Host.reduceAdd x (constant (F := Ideal) S_ .f32 0x00000000#32) Facts₀.reducesTo_S2x1x1_S_d0_1_2 Facts₀.h_S_ y
      = ∑ r : Fin 32768, g r := by
  show Ideal.hostReduceAdd Facts₀.reducesTo_S2x1x1_S_d0_1_2 x (Ideal.ofBits .f32 0x00000000#32) y = _
  rw [Ideal.hostReduceAdd_total _ (fun b => b.elim0), Ideal.ofBits_zero_f32, zero_add, ← sum_cores,
    ← Equiv.sum_comp idxEquivCores.symm x]
  exact Finset.sum_congr rfl fun cc _ => hx cc

theorem sum3_apply (c : Dev nD) (i j : Fin 512) :
    sum3 m c (ix2 i j) = ∑ r : Fin 32768, (arrA m c (ix2 r i) * arrM m c (ix2 r (0 : Fin 1))) * arrA m c (ix2 r j) :=
  reduce_cores_apply (out3 m c) _ i j fun cc => final3 m c cc i j

theorem sum4_apply (c : Dev nD) (i j : Fin 512) :
    sum4 m c (ix2 i j) = ∑ r : Fin 32768, arrA m c (ix2 r i) * arrA m c (ix2 r j) :=
  reduce_cores_apply (out4 m c) _ i j fun cc => final4 m c cc i j

theorem sum5_apply (c : Dev nD) (y : S_.Idx) :
    sum5 m c y = ∑ r : Fin 32768, ∑ l : Fin 512,
      (arrA m c (ix2 r l) - arrB m c (ix2 r l)) * (arrA m c (ix2 r l) - arrB m c (ix2 r l)) :=
  reduce_cores_total (out5 m c) _ y fun cc => final5 m c cc

end Cert.KernelIdeal.Val

end
-- ==== Proof.KValue.lean ====
/-
  The kernel program's run, read: when the index vector is the permutation `σ`, its result is the shared closing chain
  of the indicator-weighted Gram matrix, of the full Gram matrix minus it, and of the sum of squared differences.
-/
import proofs.«418193_j31361851195491_2_alg».proof.Proof.KHost

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result the kernel program ends with on core `c`. -/
def result (σ : Dev nD → Equiv.Perm (Fin 32768)) (c : Dev nD) : FVec Ideal S_ .f32 :=
  Cert.Vic.tail Facts₀.bcast_S_S512x512 Facts₀.reducesTo_S512x512_S_d0_1 Facts₀.h_S_
    dot_S512x512_S512x512_S512x512_1_0_0_1_n_n (some .fp32)
    (Cert.Vic.wgM (m ((c : Thread nD τ).loc main_arg0)) (Cert.Vic.ind (σ c)))
    (subf (Cert.Vic.grM (m ((c : Thread nD τ).loc main_arg0))) (Cert.Vic.wgM (m ((c : Thread nD τ).loc main_arg0)) (Cert.Vic.ind (σ c))))
    (Cert.Vic.sqdS (m ((c : Thread nD τ).loc main_arg0)) (m ((c : Thread nD τ).loc main_arg1)))

theorem kernel_value (σ : Dev nD → Equiv.Perm (Fin 32768))
    (hp : ∀ (c : Dev nD) (e : Fin 32768),
      (m ((c : Thread nD τ).loc main_arg2) : IVec S32768 32) (ix1 e) = BitVec.ofNat 32 (σ c e).val) :
    θ_run defs (onTc (τ := τ) (main (F := Ideal))) ⟨m, fun _ => 0, ρ⟩ (fun r => ∀ c : Dev nD,
      r.2.mem ((c : Thread nD τ).loc main_v35) = result m σ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨?_, ?_, ?_, ?_⟩) (run_main (F := Ideal) m ρ)
  · -- the result buffer is written by the host operations after the region: the closing chain of the three sums
    refine ((h c).2 main_v35 (Pipeline.mem_restRefs_of main_v35 (by decide) (by decide))).trans ?_
    rw [tail_eq m c]
    have hA : arrA m c = m ((c : Thread nD τ).loc main_arg0) := arrA_eq m c
    have hB : arrB m c = m ((c : Thread nD τ).loc main_arg1) := arrB_eq m c
    have e3 : sum3 m c = Cert.Vic.wgM (m ((c : Thread nD τ).loc main_arg0)) (Cert.Vic.ind (σ c)) := by
      funext y
      obtain ⟨i, j, rfl⟩ : ∃ (i j : Fin 512), y = ix2 i j := ⟨y 0, y 1, eq_ix2 y⟩
      rw [sum3_apply]
      show _ = Cert.Vic.wg _ _ i j
      unfold Cert.Vic.wg
      refine Finset.sum_congr rfl fun r _ => ?_
      rw [mask_apply m c (σ c) (hp c) r, hA]
    have e4 : sum4 m c = Cert.Vic.grM (m ((c : Thread nD τ).loc main_arg0)) := by
      funext y
      obtain ⟨i, j, rfl⟩ : ∃ (i j : Fin 512), y = ix2 i j := ⟨y 0, y 1, eq_ix2 y⟩
      rw [sum4_apply]
      show _ = Cert.Vic.gr _ i j
      unfold Cert.Vic.gr
      rw [hA]
    have e5 : sum5 m c = Cert.Vic.sqdS (m ((c : Thread nD τ).loc main_arg0)) (m ((c : Thread nD τ).loc main_arg1)) := by
      funext y
      rw [sum5_apply]
      show _ = Cert.Vic.sqd _ _
      unfold Cert.Vic.sqd
      rw [hA, hB]
    rw [e3, e4, e5]
    rfl
  · exact ((h c).1 0).trans (((dats (F := Ideal) m 0 c).arrAt_in 0 rfl _).trans ((A_eq m c 0).trans (V_main_arg0 m c)))
  · exact ((h c).1 1).trans (((dats (F := Ideal) m 0 c).arrAt_in 1 rfl _).trans ((A_eq m c 1).trans (V_main_arg1 m c)))
  · exact ((h c).2 main_arg2 (Pipeline.mem_restRefs_of main_arg2 (by decide) (by decide))).trans (W_main_arg2 m (dats (F := Ideal) m) c)

end Cert.KernelIdeal.Val

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.RValue.lean ====
/-
  The reference program's run, read: when the index vector is the permutation `σ`, the rows it gathers from the two
  matrices stacked are rows of the first matrix (every row number is below 32768), so its result is the shared closing
  chain of the Gram matrix of the rows the first half of `σ` names, of the Gram matrix of the rows the second half
  names, and of the sum of squared differences.
-/
import proofs.«418193_j31361851195491_2_alg».proof.Proof.Gen.ReferenceIdeal.Run
import proofs.«418193_j31361851195491_2_alg».proof.Proof.Gen.ReferenceIdeal.Read
import proofs.«418193_j31361851195491_2_alg».proof.Proof.Spec
import proofs.«418193_j31361851195491_2_alg».proof.Proof.LibGatherRows
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.ReferenceIdeal.Val

open Idealize.ShloMosaic Idealize.ShloMosaic.TcCoe Idealize.ShloMosaic.ValueIdx Idealize.SL.Sem
open Cert.ReferenceIdeal Cert.ReferenceIdeal.Gen

/-! ## The start indices

A start index is a row number below 32768 written as a 32-bit word: read as a signed integer it is not negative, so
the normalisation of negative indices (add 65536 where the word is below zero) leaves it as it is. -/

/-- A word below 2³¹ is not below zero as a signed integer: the select between "the word plus 65536" and "the word"
    keeps the word. -/
theorem select_word (w : BitVec 32) (hw : w.toNat < 2 ^ 31) :
    Scalar.select (IntOp.cmpi .slt w 0#32) (IntOp.addi w 65536#32) w = w := by
  unfold Scalar.select
  refine if_neg fun h => ?_
  have h' := (StableHlo.Predicate.slt_iff_toNat hw (by decide)).mp h
  simp at h'

/-- The word of a row number below 32768 is below 2³¹. -/
theorem word_small (r : Fin 32768) : (BitVec.ofNat 32 r.val).toNat < 2 ^ 31 := by
  have hr := r.isLt
  rw [BitVec.toNat_ofNat]
  exact Nat.lt_of_le_of_lt (Nat.mod_le _ _) (by omega)

/-- The start index of gathered row `e` of the first gather: the word at position `e` of the first half. -/
theorem start_lo (x2 : (⟨S32768, .i32⟩ : BufTy).Contents (Elt Ideal)) (e : Fin 16384) (r : Fin 32768)
    (h : x2 (ix1 (Cert.Vic.lo e)) = BitVec.ofNat 32 r.val) :
    Read.val_main_v11 (F := Ideal) x2 (ix2 e (0 : Fin 1)) = BitVec.ofNat 32 r.val := by
  have hi : Read.idx_main_v11 (ix2 e (0 : Fin 1)) = ix1 e := funext fun a => match a with | ⟨0, _⟩ => rfl
  have hs : Read.idx_main_v5 (ix1 e) = ix1 (Cert.Vic.lo e) := funext fun a => match a with | ⟨0, _⟩ => rfl
  rw [Read.val_main_v11_apply, hi, Read.val_main_v10_apply, Read.val_main_v7_apply, Read.val_main_v9_apply,
    Read.val_main_v6_apply, Read.val_main_v8_apply, Read.val_main_v5_apply, hs, h, Read.val_main_c_apply,
    Read.val_main_c_1_apply]
  exact select_word _ (word_small r)

/-- The start index of gathered row `e` of the second gather: the word at position `16384 + e`. -/
theorem start_hi (x2 : (⟨S32768, .i32⟩ : BufTy).Contents (Elt Ideal)) (e : Fin 16384) (r : Fin 32768)
    (h : x2 (ix1 (Cert.Vic.hi e)) = BitVec.ofNat 32 r.val) :
    Read.val_main_v19 (F := Ideal) x2 (ix2 e (0 : Fin 1)) = BitVec.ofNat 32 r.val := by
  have hi : Read.idx_main_v19 (ix2 e (0 : Fin 1)) = ix1 e := funext fun a => match a with | ⟨0, _⟩ => rfl
  have hs : Read.idx_main_v13 (ix1 e) = ix1 (Cert.Vic.hi e) := funext fun a => match a with | ⟨0, _⟩ => rfl
  rw [Read.val_main_v19_apply, hi, Read.val_main_v18_apply, Read.val_main_v15_apply, Read.val_main_v17_apply,
    Read.val_main_v14_apply, Read.val_main_v16_apply, Read.val_main_v13_apply, hs, h, Read.val_main_c_2_apply,
    Read.val_main_c_3_apply]
  exact select_word _ (word_small r)

/-! ## A gathered row

The gather reads the two matrices stacked ([65536, 512]) at the row its start index names, clamped into [0, 65535]. A
row number below 32768 is its own clamp and falls in the first of the two stacked matrices. -/

theorem gathered (x0 x1 : (⟨S32768x512, .f32⟩ : BufTy).Contents (Elt Ideal)) (idx : IVec S16384x1 32)
    (e : Fin 16384) (q : Fin 512) (r : Fin 32768) (h : idx (ix2 e (0 : Fin 1)) = BitVec.ofNat 32 r.val) :
    Host.gather gather_S65536x512_S16384x1_S16384x512_1_0_n_n_0_1_1512 (Read.val_main_v4 (F := Ideal) x0 x1) idx (ix2 e q)
      = x0 (ix2 r q) := by
  have hr := r.isLt
  refine (Cert.LibGatherRows.gatherRows_apply (N := 65536) (E := 16384) (D := 512) (by decide)
    gather_S65536x512_S16384x1_S16384x512_1_0_n_n_0_1_1512 rfl rfl rfl rfl rfl
    (Read.val_main_v4 (F := Ideal) x0 x1) idx e q).trans ?_
  rw [h]
  unfold Read.val_main_v4
  refine concatenate_pair_apply_left (t := S65536x512) (s₁ := S32768x512) (s₂ := S32768x512) (0 : Fin 2) x0 x1
    concatenates_S32768x512_S32768x512_S65536x512_d0 _ rfl (ix2 r q) fun b => ?_
  match b with
  | ⟨0, _⟩ =>
    show r.val = min (BitVec.ofNat 32 r.val).toInt.toNat (65536 - 1)
    rw [StableHlo.Predicate.toInt_ofNat_small r.val (by omega), Int.toNat_natCast]
    omega
  | ⟨1, _⟩ => rfl

/-! ## The two Gram matrices -/

/-- The first product of matrices is the Gram matrix of the rows the first half of the index vector names. -/
theorem gram_lo (a b : (⟨S32768x512, .f32⟩ : BufTy).Contents (Elt Ideal)) (p : (⟨S32768, .i32⟩ : BufTy).Contents (Elt Ideal))
    (s : Fin 32768 → Fin 32768) (hp : ∀ e : Fin 32768, p (ix1 e) = BitVec.ofNat 32 (s e).val) :
    Read.val_main_v22 (F := Ideal) a b p = Cert.Vic.ggM a (fun e => s (Cert.Vic.lo e)) := by
  funext i
  obtain ⟨u, v, rfl⟩ : ∃ (u v : Fin 512), i = ix2 u v := ⟨i 0, i 1, eq_ix2 i⟩
  rw [Read.val_main_v22_apply]
  show _ = Cert.Vic.gg a (fun e => s (Cert.Vic.lo e)) u v
  unfold Cert.Vic.gg
  refine Finset.sum_congr rfl fun k _ => ?_
  have hl : Read.idx_main_v21 (Read.lidx_main_v22 (ix2 u v) k) = ix2 k u :=
    funext fun x => match x with | ⟨0, _⟩ => rfl | ⟨1, _⟩ => rfl
  have hr : Read.ridx_main_v22 (ix2 u v) k = ix2 k v :=
    funext fun x => match x with | ⟨0, _⟩ => rfl | ⟨1, _⟩ => rfl
  rw [Read.val_main_v21_apply, hl, hr]
  unfold Read.val_main_v12
  rw [gathered a b _ k u _ (start_lo p k _ (hp _)), gathered a b _ k v _ (start_lo p k _ (hp _))]

/-- The second product of matrices is the Gram matrix of the rows the second half names. -/
theorem gram_hi (a b : (⟨S32768x512, .f32⟩ : BufTy).Contents (Elt Ideal)) (p : (⟨S32768, .i32⟩ : BufTy).Contents (Elt Ideal))
    (s : Fin 32768 → Fin 32768) (hp : ∀ e : Fin 32768, p (ix1 e) = BitVec.ofNat 32 (s e).val) :
    Read.val_main_v26 (F := Ideal) a b p = Cert.Vic.ggM a (fun e => s (Cert.Vic.hi e)) := by
  funext i
  obtain ⟨u, v, rfl⟩ : ∃ (u v : Fin 512), i = ix2 u v := ⟨i 0, i 1, eq_ix2 i⟩
  rw [Read.val_main_v26_apply]
  show _ = Cert.Vic.gg a (fun e => s (Cert.Vic.hi e)) u v
  unfold Cert.Vic.gg
  refine Finset.sum_congr rfl fun k _ => ?_
  have hl : Read.idx_main_v25 (Read.lidx_main_v26 (ix2 u v) k) = ix2 k u :=
    funext fun x => match x with | ⟨0, _⟩ => rfl | ⟨1, _⟩ => rfl
  have hr : Read.ridx_main_v26 (ix2 u v) k = ix2 k v :=
    funext fun x => match x with | ⟨0, _⟩ => rfl | ⟨1, _⟩ => rfl
  rw [Read.val_main_v25_apply, hl, hr]
  unfold Read.val_main_v20
  rw [gathered a b _ k u _ (start_hi p k _ (hp _)), gathered a b _ k v _ (start_hi p k _ (hp _))]

/-! ## The sum of squared differences -/

/-- The float sum over both axes, from zero, of `(a − b) · (a − b)` is the double sum over rows and columns. -/
theorem sqd_eq (a b : (⟨S32768x512, .f32⟩ : BufTy).Contents (Elt Ideal)) :
    Read.val_main_v2 (F := Ideal) a b = Cert.Vic.sqdS a b := by
  funext i
  rw [Read.val_main_v2_apply, Read.val_main_cst_apply]
  simp only [Read.val_main_v1_apply, Read.val_main_v0_apply, Ideal.ofBits_def, Ideal.ofBits_zero_f32, zero_add,
    Ideal.mulf_def, Ideal.subf_def]
  show _ = Cert.Vic.sqd a b
  unfold Cert.Vic.sqd
  exact ValueIdx.sum_idx2 (fun j => (a j - b j) * (a j - b j))

/-! ## The closing chain

The reference's last stages are the shared closing chain applied to the two products of matrices and the float sum:
the operations are the printed ones in the printed order, so once the three operands are named the two sides are the
same term. -/

theorem closing (a b : (⟨S32768x512, .f32⟩ : BufTy).Contents (Elt Ideal)) (p : (⟨S32768, .i32⟩ : BufTy).Contents (Elt Ideal)) :
    Read.val_main_v43 (F := Ideal) a b p
      = Cert.Vic.tail Facts₀.bcast_S_S512x512 Facts₀.reducesTo_S512x512_S_d0_1 Facts₀.h_S_
          dot_S512x512_S512x512_S512x512_1_0_0_1_n_n none
          (Read.val_main_v22 (F := Ideal) a b p) (Read.val_main_v26 (F := Ideal) a b p)
          (Read.val_main_v2 (F := Ideal) a b) := by
  unfold Read.val_main_v43 Read.val_main_v41 Read.val_main_v42 Read.val_main_v40 Read.val_main_v39 Read.val_main_v38
    Read.val_main_v37 Read.val_main_v35 Read.val_main_v36 Read.val_main_v24 Read.val_main_v28 Read.val_main_v3
  generalize Read.val_main_v22 (F := Ideal) a b p = cA
  generalize Read.val_main_v26 (F := Ideal) a b p = cB
  generalize Read.val_main_v2 (F := Ideal) a b = s
  rfl

/-- The reference's last stage, in full: the closing chain of the two Gram matrices and the sum of squared
    differences. -/
theorem value_eq (a b : (⟨S32768x512, .f32⟩ : BufTy).Contents (Elt Ideal)) (p : (⟨S32768, .i32⟩ : BufTy).Contents (Elt Ideal))
    (s : Fin 32768 → Fin 32768) (hp : ∀ e : Fin 32768, p (ix1 e) = BitVec.ofNat 32 (s e).val) :
    Read.val_main_v43 (F := Ideal) a b p
      = Cert.Vic.tail Facts₀.bcast_S_S512x512 Facts₀.reducesTo_S512x512_S_d0_1 Facts₀.h_S_
          dot_S512x512_S512x512_S512x512_1_0_0_1_n_n none
          (Cert.Vic.ggM a (fun e => s (Cert.Vic.lo e))) (Cert.Vic.ggM a (fun e => s (Cert.Vic.hi e)))
          (Cert.Vic.sqdS a b) := by
  rw [closing, gram_lo a b p s hp, gram_hi a b p s hp, sqd_eq]

variable (m : (ℓ : Loc nD τ sig) → Buf (Elt Ideal) ℓ) (ρ : Dev nD → PrngReg)

/-- The result the reference program ends with on core `c`. -/
def result (σ : Dev nD → Equiv.Perm (Fin 32768)) (c : Dev nD) : FVec Ideal S_ .f32 :=
  Cert.Vic.tail Facts₀.bcast_S_S512x512 Facts₀.reducesTo_S512x512_S_d0_1 Facts₀.h_S_
    dot_S512x512_S512x512_S512x512_1_0_0_1_n_n none
    (Cert.Vic.ggM (m ((c : Thread nD τ).loc main_arg0)) (fun e => σ c (Cert.Vic.lo e)))
    (Cert.Vic.ggM (m ((c : Thread nD τ).loc main_arg0)) (fun e => σ c (Cert.Vic.hi e)))
    (Cert.Vic.sqdS (m ((c : Thread nD τ).loc main_arg0)) (m ((c : Thread nD τ).loc main_arg1)))

theorem ref_value (σ : Dev nD → Equiv.Perm (Fin 32768))
    (hp : ∀ (c : Dev nD) (e : Fin 32768),
      (m ((c : Thread nD τ).loc main_arg2) : IVec S32768 32) (ix1 e) = BitVec.ofNat 32 (σ c e).val) :
    θ_run defs (onTc (τ := τ) (main (F := Ideal))) ⟨m, fun _ => 0, ρ⟩ (fun r => ∀ c : Dev nD,
      r.2.mem ((c : Thread nD τ).loc main_v43) = result m σ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun _ h c => ⟨(h c).1.trans ?_, (h c).2⟩)
    (Cert.ReferenceIdeal.Value.run (F := Ideal) m ρ)
  rw [Read.val_main_v43_eq]
  exact value_eq _ _ _ (fun e => σ c e) (hp c)

end Cert.ReferenceIdeal.Val

end
-- ==== Proof.lean ====
/-
  The kernel against its reference, over the extended reals.

  Both programs compute  25 · mean((a − b)²) + ‖(C₁ − I)(C₂ − I)‖_F  where C₁, C₂ are the covariance sums (divided by
  16383) of the rows of `a` that the first and the second half of the index vector `perm` name. The reference gathers
  those rows. The kernel never gathers: it marks the rows the first half names with a 0/1 mask, accumulates the masked
  Gram matrix and the full Gram matrix of `a` over a grid of row blocks, and takes the second covariance sum as the
  full one minus the masked one. The two agree exactly when `perm` is a permutation of the row numbers 0 … 32767,
  which the precondition states: then the rows the first half names are distinct, and the rows the second half names are
  exactly the rest. The subtraction is a cancellation, and on the extended reals it needs the entries of `a` finite,
  which the precondition also states. From the three sums on, both programs apply the same chain of operations.

  The frames are the generated ones; the reference's is its generated run with the result dropped.
-/
import proofs.«418193_j31361851195491_2_alg».proof.Defs
import proofs.«418193_j31361851195491_2_alg».proof.Proof.Gen.Kernel
import proofs.«418193_j31361851195491_2_alg».proof.Proof.Gen.Kernel.Skeleton
import proofs.«418193_j31361851195491_2_alg».proof.Proof.Gen.Kernel.Launch
import proofs.«418193_j31361851195491_2_alg».proof.Proof.Gen.Kernel.Points
import proofs.«418193_j31361851195491_2_alg».proof.Proof.Gen.Kernel.Frame
import proofs.«418193_j31361851195491_2_alg».proof.Proof.Gen.KernelIdeal
import proofs.«418193_j31361851195491_2_alg».proof.Proof.Gen.KernelIdeal.Skeleton
import proofs.«418193_j31361851195491_2_alg».proof.Proof.Gen.KernelIdeal.Launch
import proofs.«418193_j31361851195491_2_alg».proof.Proof.Gen.KernelIdeal.Points
import proofs.«418193_j31361851195491_2_alg».proof.Proof.Gen.KernelIdeal.Frame
import proofs.«418193_j31361851195491_2_alg».proof.Proof.Gen.ReferenceIdeal
import proofs.«418193_j31361851195491_2_alg».proof.Proof.Gen.ReferenceIdeal.Run
import proofs.«418193_j31361851195491_2_alg».proof.Proof.Gen.ReferenceIdeal.Read
import proofs.«418193_j31361851195491_2_alg».proof.Proof.Gen.Pre_finite_inputs
import proofs.«418193_j31361851195491_2_alg».proof.Proof.Spec
import proofs.«418193_j31361851195491_2_alg».proof.Proof.Bridge
import proofs.«418193_j31361851195491_2_alg».proof.Proof.PreFacts
import proofs.«418193_j31361851195491_2_alg».proof.Proof.KValue
import proofs.«418193_j31361851195491_2_alg».proof.Proof.RValue
import Idealize.ShloMosaic.Adequacy
import Idealize.ShloMosaic.Init

noncomputable section

namespace Cert.Proof

open Idealize.ShloMosaic Idealize.ShloMosaic.ValueIdx Idealize.SL.Sem

/-- From memories that agree on the arguments and satisfy the precondition, both idealized programs end with the same
    value: the precondition yields the permutation `σ` the index vector is and the finiteness of the first matrix;
    each program's run is read as the closing chain of its three sums; the sums agree by the two counting facts. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.Vic.pre_decode _ _ _ (hpre c)
  choose hfa hfb σ hσ using hdec
  refine ⟨Cert.KernelIdeal.Val.result m σ, Cert.KernelIdeal.Val.kernel_value m ρ σ hσ, ?_⟩
  have hσ' : ∀ (c : Dev Cert.ReferenceIdeal.nD) (e : Fin 32768),
      (m' ((c.tc : Thread Cert.ReferenceIdeal.nD Cert.ReferenceIdeal.τ).loc Cert.ReferenceIdeal.main_arg2) : IVec Cert.ReferenceIdeal.S32768 32) (ix1 e)
        = BitVec.ofNat 32 (σ c e).val := fun c e => by rw [(hagree c).2.2]; exact hσ c e
  refine (θ_run Cert.ReferenceIdeal.defs _ _).mono (fun _ h c => ⟨(h c).1.trans ?_, (h c).2⟩)
    (Cert.ReferenceIdeal.Val.ref_value m' ρ' σ hσ')
  unfold Cert.ReferenceIdeal.Val.result Cert.KernelIdeal.Val.result
  rw [(hagree c).1, (hagree c).2.1]
  have e1 : Cert.Vic.ggM (m ((c.tc : Thread Cert.KernelIdeal.nD Cert.KernelIdeal.τ).loc Cert.KernelIdeal.main_arg0)) (fun e => σ c (Cert.Vic.lo e))
      = Cert.Vic.wgM (m ((c.tc : Thread Cert.KernelIdeal.nD Cert.KernelIdeal.τ).loc Cert.KernelIdeal.main_arg0)) (Cert.Vic.ind (σ c)) :=
    funext fun y => Cert.Vic.gg_lo _ (σ c) (y 0) (y 1)
  have e2 : Cert.Vic.ggM (m ((c.tc : Thread Cert.KernelIdeal.nD Cert.KernelIdeal.τ).loc Cert.KernelIdeal.main_arg0)) (fun e => σ c (Cert.Vic.hi e))
      = subf (Cert.Vic.grM (m ((c.tc : Thread Cert.KernelIdeal.nD Cert.KernelIdeal.τ).loc Cert.KernelIdeal.main_arg0)))
          (Cert.Vic.wgM (m ((c.tc : Thread Cert.KernelIdeal.nD Cert.KernelIdeal.τ).loc Cert.KernelIdeal.main_arg0)) (Cert.Vic.ind (σ c))) :=
    funext fun y => Cert.Vic.gg_hi _ (hfa c) (σ c) (y 0) (y 1)
  rw [e1, e2]
  exact Cert.Vic.tail_congr _ _ _ _ _ _ _ _ rfl _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
